-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32736 : Shape := ⟨2, ![4096, 32736]⟩
abbrev S_ : Shape := ⟨0, ![]⟩

class Facts : Prop where
  bcast_S_S4096x32736 : S_.BroadcastsInDim S4096x32736 (![] : Fin 0 → Fin S4096x32736.rank)
  reducesTo_S4096x32736_S_d0_1 : S4096x32736.ReducesTo [0, 1] S_
  h_S_ : 0 < S_.numel

variable [Facts]

def fn {F : FTy → Type} [FloatOps F] (main_arg0 : FVec F S4096x32736 .f32) : IVec S_ 1 :=
  let main_v0 : FVec F S4096x32736 .f32 := Host.absf main_arg0
  let main_cst : FVec F S_ .f32 := constant S_ .f32 0x7F800000#32
  let main_v1 : FVec F S4096x32736 .f32 := broadcastInDim S4096x32736 ![] bcast_S_S4096x32736 main_cst
  let main_v2 : IVec S4096x32736 1 := cmpf .olt main_v0 main_v1
  let main_c : IVec S_ 1 := constantI S_ 1 1#1
  let main_v3 : IVec S_ 1 := (fun x v => Host.reduce IntOp.andi x v reducesTo_S4096x32736_S_d0_1 h_S_) main_v2 main_c
  main_v3
-- ==== Kernel.lean ====
abbrev S4096x32736 : Shape := ⟨2, ![4096, 32736]⟩
abbrev S4096x32 : Shape := ⟨2, ![4096, 32]⟩
abbrev S32x32736 : Shape := ⟨2, ![32, 32736]⟩
abbrev S32x32 : Shape := ⟨2, ![32, 32]⟩
abbrev S32x32x1023 : Shape := ⟨3, ![32, 32, 1023]⟩
abbrev S32x32x1 : Shape := ⟨3, ![32, 32, 1]⟩
abbrev S32x32x1x1 : Shape := ⟨4, ![32, 32, 1, 1]⟩
abbrev S32x32x1x2 : Shape := ⟨4, ![32, 32, 1, 2]⟩
abbrev S32x32x2 : Shape := ⟨3, ![32, 32, 2]⟩
abbrev S32x32x2x1 : Shape := ⟨4, ![32, 32, 2, 1]⟩
abbrev S32x32x2x2 : Shape := ⟨4, ![32, 32, 2, 2]⟩
abbrev S32x32x4 : Shape := ⟨3, ![32, 32, 4]⟩
abbrev S32x32x4x1 : Shape := ⟨4, ![32, 32, 4, 1]⟩
abbrev S32x32x4x2 : Shape := ⟨4, ![32, 32, 4, 2]⟩
abbrev S32x32x8 : Shape := ⟨3, ![32, 32, 8]⟩
abbrev S32x32x8x1 : Shape := ⟨4, ![32, 32, 8, 1]⟩
abbrev S32x32x8x2 : Shape := ⟨4, ![32, 32, 8, 2]⟩
abbrev S32x32x16 : Shape := ⟨3, ![32, 32, 16]⟩
abbrev S32x32x16x1 : Shape := ⟨4, ![32, 32, 16, 1]⟩
abbrev S32x32x16x2 : Shape := ⟨4, ![32, 32, 16, 2]⟩
abbrev S32x32x32 : Shape := ⟨3, ![32, 32, 32]⟩
abbrev S32x32x32x1 : Shape := ⟨4, ![32, 32, 32, 1]⟩
abbrev S32x32x32x2 : Shape := ⟨4, ![32, 32, 32, 2]⟩
abbrev S32x32x64 : Shape := ⟨3, ![32, 32, 64]⟩
abbrev S32x32x64x1 : Shape := ⟨4, ![32, 32, 64, 1]⟩
abbrev S32x32x64x2 : Shape := ⟨4, ![32, 32, 64, 2]⟩
abbrev S32x32x128 : Shape := ⟨3, ![32, 32, 128]⟩
abbrev S32x32x128x1 : Shape := ⟨4, ![32, 32, 128, 1]⟩
abbrev S32x32x128x2 : Shape := ⟨4, ![32, 32, 128, 2]⟩
abbrev S32x32x256 : Shape := ⟨3, ![32, 32, 256]⟩
abbrev S32x32x256x1 : Shape := ⟨4, ![32, 32, 256, 1]⟩
abbrev S32x32x256x2 : Shape := ⟨4, ![32, 32, 256, 2]⟩
abbrev S32x32x512 : Shape := ⟨3, ![32, 32, 512]⟩

abbrev nBuf : Space → Nat
  | .hbm => 2
  | .vmem => 4
  | .smem => 0
  | _ => 0

abbrev bufTy : (tb : Table) → Fin (tcTables nBuf tb) → BufTy
  | .hbm, ⟨0, _⟩ => ⟨S4096x32736, .f32⟩
  | .hbm, ⟨1, _⟩ => ⟨S4096x32, .f32⟩
  | .local _ .vmem, ⟨0, _⟩ => ⟨S32x32736, .f32⟩
  | .local _ .vmem, ⟨1, _⟩ => ⟨S32x32736, .f32⟩
  | .local _ .vmem, ⟨2, _⟩ => ⟨S32x32, .f32⟩
  | .local _ .vmem, ⟨3, _⟩ => ⟨S32x32, .f32⟩
  | _, _ => ⟨S4096x32736, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x32736 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S32x32736_S32x32736_0_0 : ∀ a, (![0, 0] : Fin 2 → Nat) a + S32x32736.size a ≤ S32x32736.size a
  h_S32x32736 : 0 < S32x32736.numel
  shapeCasts_S32x32736_S32x32x1023 : S32x32736.ShapeCasts S32x32x1023
  slices_S32x32x1023_o0_0_0_S32x32x1 : S32x32x1023.Slices ![0, 0, 0] S32x32x1
  shapeCasts_S32x32x1_S32x32x1x1 : S32x32x1.ShapeCasts S32x32x1x1
  concatenates_S32x32x1x1_S32x32x1x1_S32x32x1x2_d3 : Shape.Concatenates [S32x32x1x1, S32x32x1x1] S32x32x1x2 3
  shapeCasts_S32x32x1x2_S32x32x2 : S32x32x1x2.ShapeCasts S32x32x2
  slices_S32x32x1023_o0_0_1_S32x32x2 : S32x32x1023.Slices ![0, 0, 1] S32x32x2
  shapeCasts_S32x32x2_S32x32x2x1 : S32x32x2.ShapeCasts S32x32x2x1
  concatenates_S32x32x2x1_S32x32x2x1_S32x32x2x2_d3 : Shape.Concatenates [S32x32x2x1, S32x32x2x1] S32x32x2x2 3
  shapeCasts_S32x32x2x2_S32x32x4 : S32x32x2x2.ShapeCasts S32x32x4
  slices_S32x32x1023_o0_0_3_S32x32x4 : S32x32x1023.Slices ![0, 0, 3] S32x32x4
  shapeCasts_S32x32x4_S32x32x4x1 : S32x32x4.ShapeCasts S32x32x4x1
  concatenates_S32x32x4x1_S32x32x4x1_S32x32x4x2_d3 : Shape.Concatenates [S32x32x4x1, S32x32x4x1] S32x32x4x2 3
  shapeCasts_S32x32x4x2_S32x32x8 : S32x32x4x2.ShapeCasts S32x32x8
  slices_S32x32x1023_o0_0_7_S32x32x8 : S32x32x1023.Slices ![0, 0, 7] S32x32x8
  shapeCasts_S32x32x8_S32x32x8x1 : S32x32x8.ShapeCasts S32x32x8x1
  concatenates_S32x32x8x1_S32x32x8x1_S32x32x8x2_d3 : Shape.Concatenates [S32x32x8x1, S32x32x8x1] S32x32x8x2 3
  shapeCasts_S32x32x8x2_S32x32x16 : S32x32x8x2.ShapeCasts S32x32x16
  slices_S32x32x1023_o0_0_15_S32x32x16 : S32x32x1023.Slices ![0, 0, 15] S32x32x16
  shapeCasts_S32x32x16_S32x32x16x1 : S32x32x16.ShapeCasts S32x32x16x1
  concatenates_S32x32x16x1_S32x32x16x1_S32x32x16x2_d3 : Shape.Concatenates [S32x32x16x1, S32x32x16x1] S32x32x16x2 3
  shapeCasts_S32x32x16x2_S32x32x32 : S32x32x16x2.ShapeCasts S32x32x32
  slices_S32x32x1023_o0_0_31_S32x32x32 : S32x32x1023.Slices ![0, 0, 31] S32x32x32
  shapeCasts_S32x32x32_S32x32x32x1 : S32x32x32.ShapeCasts S32x32x32x1
  concatenates_S32x32x32x1_S32x32x32x1_S32x32x32x2_d3 : Shape.Concatenates [S32x32x32x1, S32x32x32x1] S32x32x32x2 3
  shapeCasts_S32x32x32x2_S32x32x64 : S32x32x32x2.ShapeCasts S32x32x64
  slices_S32x32x1023_o0_0_63_S32x32x64 : S32x32x1023.Slices ![0, 0, 63] S32x32x64
  shapeCasts_S32x32x64_S32x32x64x1 : S32x32x64.ShapeCasts S32x32x64x1
  concatenates_S32x32x64x1_S32x32x64x1_S32x32x64x2_d3 : Shape.Concatenates [S32x32x64x1, S32x32x64x1] S32x32x64x2 3
  shapeCasts_S32x32x64x2_S32x32x128 : S32x32x64x2.ShapeCasts S32x32x128
  slices_S32x32x1023_o0_0_127_S32x32x128 : S32x32x1023.Slices ![0, 0, 127] S32x32x128
  shapeCasts_S32x32x128_S32x32x128x1 : S32x32x128.ShapeCasts S32x32x128x1
  concatenates_S32x32x128x1_S32x32x128x1_S32x32x128x2_d3 : Shape.Concatenates [S32x32x128x1, S32x32x128x1] S32x32x128x2 3
  shapeCasts_S32x32x128x2_S32x32x256 : S32x32x128x2.ShapeCasts S32x32x256
  slices_S32x32x1023_o0_0_255_S32x32x256 : S32x32x1023.Slices ![0, 0, 255] S32x32x256
  shapeCasts_S32x32x256_S32x32x256x1 : S32x32x256.ShapeCasts S32x32x256x1
  concatenates_S32x32x256x1_S32x32x256x1_S32x32x256x2_d3 : Shape.Concatenates [S32x32x256x1, S32x32x256x1] S32x32x256x2 3
  shapeCasts_S32x32x256x2_S32x32x512 : S32x32x256x2.ShapeCasts S32x32x512
  slices_S32x32x1023_o0_0_511_S32x32x512 : S32x32x1023.Slices ![0, 0, 511] S32x32x512
  reduces_S32x32x512_S32x32 : S32x32x512.Reduces [2] S32x32
  inb_S32x32_S32x32_0_0 : ∀ a, (![0, 0] : Fin 2 → Nat) a + S32x32.size a ≤ S32x32.size a
  h_S32x32 : 0 < S32x32.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32736.size a ≤ S4096x32736.size a
  hwx0_0 : ∀ i : grid0.Coords, EltTy.bits .f32 = 32 ∨ (Rect.block (s := S4096x32736) S32x32736.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S4096x32.size a
  hwx0_1 : ∀ i : grid0.Coords, EltTy.bits .f32 = 32 ∨ (Rect.block (s := S4096x32) S32x32.size (cc0_transform_1 i) (hinb0_1 i)).WholeWords (EltTy.packing .f32)

variable [Facts₀]

abbrev win0_0 : Pipeline.Window sig grid0 :=
  Pipeline.Window.ofSpec (Memref.whole main_arg0) S32x32736.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x32736 : Shape := ⟨2, ![4096, 32736]⟩
abbrev S4096x32x1023 : Shape := ⟨3, ![4096, 32, 1023]⟩
abbrev S4096x32x1 : Shape := ⟨3, ![4096, 32, 1]⟩
abbrev S_ : Shape := ⟨0, ![]⟩
abbrev S4096x32x1x1 : Shape := ⟨4, ![4096, 32, 1, 1]⟩
abbrev S4096x32x1x2 : Shape := ⟨4, ![4096, 32, 1, 2]⟩
abbrev S4096x32x2 : Shape := ⟨3, ![4096, 32, 2]⟩
abbrev S4096x32x2x1 : Shape := ⟨4, ![4096, 32, 2, 1]⟩
abbrev S4096x32x2x2 : Shape := ⟨4, ![4096, 32, 2, 2]⟩
abbrev S4096x32x4 : Shape := ⟨3, ![4096, 32, 4]⟩
abbrev S4096x32x4x1 : Shape := ⟨4, ![4096, 32, 4, 1]⟩
abbrev S4096x32x4x2 : Shape := ⟨4, ![4096, 32, 4, 2]⟩
abbrev S4096x32x8 : Shape := ⟨3, ![4096, 32, 8]⟩
abbrev S4096x32x8x1 : Shape := ⟨4, ![4096, 32, 8, 1]⟩
abbrev S4096x32x8x2 : Shape := ⟨4, ![4096, 32, 8, 2]⟩
abbrev S4096x32x16 : Shape := ⟨3, ![4096, 32, 16]⟩
abbrev S4096x32x16x1 : Shape := ⟨4, ![4096, 32, 16, 1]⟩
abbrev S4096x32x16x2 : Shape := ⟨4, ![4096, 32, 16, 2]⟩
abbrev S4096x32x32 : Shape := ⟨3, ![4096, 32, 32]⟩
abbrev S4096x32x32x1 : Shape := ⟨4, ![4096, 32, 32, 1]⟩
abbrev S4096x32x32x2 : Shape := ⟨4, ![4096, 32, 32, 2]⟩
abbrev S4096x32x64 : Shape := ⟨3, ![4096, 32, 64]⟩
abbrev S4096x32x64x1 : Shape := ⟨4, ![4096, 32, 64, 1]⟩
abbrev S4096x32x64x2 : Shape := ⟨4, ![4096, 32, 64, 2]⟩
abbrev S4096x32x128 : Shape := ⟨3, ![4096, 32, 128]⟩
abbrev S4096x32x128x1 : Shape := ⟨4, ![4096, 32, 128, 1]⟩
abbrev S4096x32x128x2 : Shape := ⟨4, ![4096, 32, 128, 2]⟩
abbrev S4096x32x256 : Shape := ⟨3, ![4096, 32, 256]⟩
abbrev S4096x32x256x1 : Shape := ⟨4, ![4096, 32, 256, 1]⟩
abbrev S4096x32x256x2 : Shape := ⟨4, ![4096, 32, 256, 2]⟩
abbrev S4096x32x512 : Shape := ⟨3, ![4096, 32, 512]⟩
abbrev S4096x32x512x1 : Shape := ⟨4, ![4096, 32, 512, 1]⟩
abbrev S4096x32x512x2 : Shape := ⟨4, ![4096, 32, 512, 2]⟩
abbrev S4096x32x1024 : Shape := ⟨3, ![4096, 32, 1024]⟩
abbrev S4096x32 : Shape := ⟨2, ![4096, 32]⟩

abbrev nBuf : Space → Nat
  | .hbm => 229
  | .vmem => 0
  | .smem => 0
  | _ => 0

abbrev hbmTy0_0 (i : Nat) : BufTy := match i % 128 with
  | 0 => ⟨S4096x32736, .f32⟩
  | 1 => ⟨S4096x32x1023, .f32⟩
  | 2 => ⟨S4096x32x1, .f32⟩
  | 3 => ⟨S_, .f32⟩
  | 4 => ⟨S4096x32x1, .f32⟩
  | 5 => ⟨S4096x32x1, .f32⟩
  | 6 => ⟨S_, .f32⟩
  | 7 => ⟨S4096x32x1, .f32⟩
  | 8 => ⟨S4096x32x1, .f32⟩
  | 9 => ⟨S4096x32x1, .f32⟩
  | 10 => ⟨S4096x32x1, .f32⟩
  | 11 => ⟨S_, .f32⟩
  | 12 => ⟨S4096x32x1, .f32⟩
  | 13 => ⟨S4096x32x1, .f32⟩
  | 14 => ⟨S_, .f32⟩
  | 15 => ⟨S4096x32x1, .f32⟩
  | 16 => ⟨S4096x32x1, .f32⟩
  | 17 => ⟨S_, .f32⟩
  | 18 => ⟨S4096x32x1, .f32⟩
  | 19 => ⟨S4096x32x1, .f32⟩
  | 20 => ⟨S4096x32x1x1, .f32⟩
  | 21 => ⟨S4096x32x1x1, .f32⟩
  | 22 => ⟨S4096x32x1x2, .f32⟩
  | 23 => ⟨S4096x32x1x1, .f32⟩
  | 24 => ⟨S4096x32x1x2, .f32⟩
  | 25 => ⟨S4096x32x1x2, .f32⟩
  | 26 => ⟨S4096x32x2, .f32⟩
  | 27 => ⟨S4096x32x2, .f32⟩
  | 28 => ⟨S_, .f32⟩
  | 29 => ⟨S4096x32x2, .f32⟩
  | 30 => ⟨S4096x32x2, .f32⟩
  | 31 => ⟨S4096x32x2, .f32⟩
  | 32 => ⟨S4096x32x2, .f32⟩
  | 33 => ⟨S_, .f32⟩
  | 34 => ⟨S4096x32x2, .f32⟩
  | 35 => ⟨S4096x32x2, .f32⟩
  | 36 => ⟨S_, .f32⟩
  | 37 => ⟨S4096x32x2, .f32⟩
  | 38 => ⟨S4096x32x2, .f32⟩
  | 39 => ⟨S_, .f32⟩
  | 40 => ⟨S4096x32x2, .f32⟩
  | 41 => ⟨S4096x32x2, .f32⟩
  | 42 => ⟨S4096x32x2x1, .f32⟩
  | 43 => ⟨S4096x32x2x1, .f32⟩
  | 44 => ⟨S4096x32x2x2, .f32⟩
  | 45 => ⟨S4096x32x2x1, .f32⟩
  | 46 => ⟨S4096x32x2x2, .f32⟩
  | 47 => ⟨S4096x32x2x2, .f32⟩
  | 48 => ⟨S4096x32x4, .f32⟩
  | 49 => ⟨S4096x32x4, .f32⟩
  | 50 => ⟨S_, .f32⟩
  | 51 => ⟨S4096x32x4, .f32⟩
  | 52 => ⟨S4096x32x4, .f32⟩
  | 53 => ⟨S4096x32x4, .f32⟩
  | 54 => ⟨S4096x32x4, .f32⟩
  | 55 => ⟨S_, .f32⟩
  | 56 => ⟨S4096x32x4, .f32⟩
  | 57 => ⟨S4096x32x4, .f32⟩
  | 58 => ⟨S_, .f32⟩
  | 59 => ⟨S4096x32x4, .f32⟩
  | 60 => ⟨S4096x32x4, .f32⟩
  | 61 => ⟨S_, .f32⟩
  | 62 => ⟨S4096x32x4, .f32⟩
  | 63 => ⟨S4096x32x4, .f32⟩
  | 64 => ⟨S4096x32x4x1, .f32⟩
  | 65 => ⟨S4096x32x4x1, .f32⟩
  | 66 => ⟨S4096x32x4x2, .f32⟩
  | 67 => ⟨S4096x32x4x1, .f32⟩
  | 68 => ⟨S4096x32x4x2, .f32⟩
  | 69 => ⟨S4096x32x4x2, .f32⟩
  | 70 => ⟨S4096x32x8, .f32⟩
  | 71 => ⟨S4096x32x8, .f32⟩
  | 72 => ⟨S_, .f32⟩
  | 73 => ⟨S4096x32x8, .f32⟩
  | 74 => ⟨S4096x32x8, .f32⟩
  | 75 => ⟨S4096x32x8, .f32⟩
  | 76 => ⟨S4096x32x8, .f32⟩
  | 77 => ⟨S_, .f32⟩
  | 78 => ⟨S4096x32x8, .f32⟩
  | 79 => ⟨S4096x32x8, .f32⟩
  | 80 => ⟨S_, .f32⟩
  | 81 => ⟨S4096x32x8, .f32⟩
  | 82 => ⟨S4096x32x8, .f32⟩
  | 83 => ⟨S_, .f32⟩
  | 84 => ⟨S4096x32x8, .f32⟩
  | 85 => ⟨S4096x32x8, .f32⟩
  | 86 => ⟨S4096x32x8x1, .f32⟩
  | 87 => ⟨S4096x32x8x1, .f32⟩
  | 88 => ⟨S4096x32x8x2, .f32⟩
  | 89 => ⟨S4096x32x8x1, .f32⟩
  | 90 => ⟨S4096x32x8x2, .f32⟩
  | 91 => ⟨S4096x32x8x2, .f32⟩
  | 92 => ⟨S4096x32x16, .f32⟩
  | 93 => ⟨S4096x32x16, .f32⟩
  | 94 => ⟨S_, .f32⟩
  | 95 => ⟨S4096x32x16, .f32⟩
  | 96 => ⟨S4096x32x16, .f32⟩
  | 97 => ⟨S4096x32x16, .f32⟩
  | 98 => ⟨S4096x32x16, .f32⟩
  | 99 => ⟨S_, .f32⟩
  | 100 => ⟨S4096x32x16, .f32⟩
  | 101 => ⟨S4096x32x16, .f32⟩
  | 102 => ⟨S_, .f32⟩
  | 103 => ⟨S4096x32x16, .f32⟩
  | 104 => ⟨S4096x32x16, .f32⟩
  | 105 => ⟨S_, .f32⟩
  | 106 => ⟨S4096x32x16, .f32⟩
  | 107 => ⟨S4096x32x16, .f32⟩
  | 108 => ⟨S4096x32x16x1, .f32⟩
  | 109 => ⟨S4096x32x16x1, .f32⟩
  | 110 => ⟨S4096x32x16x2, .f32⟩
  | 111 => ⟨S4096x32x16x1, .f32⟩
  | 112 => ⟨S4096x32x16x2, .f32⟩
  | 113 => ⟨S4096x32x16x2, .f32⟩
  | 114 => ⟨S4096x32x32, .f32⟩
  | 115 => ⟨S4096x32x32, .f32⟩
  | 116 => ⟨S_, .f32⟩
  | 117 => ⟨S4096x32x32, .f32⟩
  | 118 => ⟨S4096x32x32, .f32⟩
  | 119 => ⟨S4096x32x32, .f32⟩
  | 120 => ⟨S4096x32x32, .f32⟩
  | 121 => ⟨S_, .f32⟩
  | 122 => ⟨S4096x32x32, .f32⟩
  | 123 => ⟨S4096x32x32, .f32⟩
  | 124 => ⟨S_, .f32⟩
  | 125 => ⟨S4096x32x32, .f32⟩
  | 126 => ⟨S4096x32x32, .f32⟩
  | 127 => ⟨S_, .f32⟩
  | _ => ⟨S4096x32736, .f32⟩

abbrev hbmTy0_1 (i : Nat) : BufTy := match i % 128 with
  | 0 => ⟨S4096x32x32, .f32⟩
  | 1 => ⟨S4096x32x32, .f32⟩
  | 2 => ⟨S4096x32x32x1, .f32⟩
  | 3 => ⟨S4096x32x32x1, .f32⟩
  | 4 => ⟨S4096x32x32x2, .f32⟩
  | 5 => ⟨S4096x32x32x1, .f32⟩
  | 6 => ⟨S4096x32x32x2, .f32⟩
  | 7 => ⟨S4096x32x32x2, .f32⟩
  | 8 => ⟨S4096x32x64, .f32⟩
  | 9 => ⟨S4096x32x64, .f32⟩
  | 10 => ⟨S_, .f32⟩
  | 11 => ⟨S4096x32x64, .f32⟩
  | 12 => ⟨S4096x32x64, .f32⟩
  | 13 => ⟨S4096x32x64, .f32⟩
  | 14 => ⟨S4096x32x64, .f32⟩
  | 15 => ⟨S_, .f32⟩
  | 16 => ⟨S4096x32x64, .f32⟩
  | 17 => ⟨S4096x32x64, .f32⟩
  | 18 => ⟨S_, .f32⟩
  | 19 => ⟨S4096x32x64, .f32⟩
  | 20 => ⟨S4096x32x64, .f32⟩
  | 21 => ⟨S_, .f32⟩
  | 22 => ⟨S4096x32x64, .f32⟩
  | 23 => ⟨S4096x32x64, .f32⟩
  | 24 => ⟨S4096x32x64x1, .f32⟩
  | 25 => ⟨S4096x32x64x1, .f32⟩
  | 26 => ⟨S4096x32x64x2, .f32⟩
  | 27 => ⟨S4096x32x64x1, .f32⟩
  | 28 => ⟨S4096x32x64x2, .f32⟩
  | 29 => ⟨S4096x32x64x2, .f32⟩
  | 30 => ⟨S4096x32x128, .f32⟩
  | 31 => ⟨S4096x32x128, .f32⟩
  | 32 => ⟨S_, .f32⟩
  | 33 => ⟨S4096x32x128, .f32⟩
  | 34 => ⟨S4096x32x128, .f32⟩
  | 35 => ⟨S4096x32x128, .f32⟩
  | 36 => ⟨S4096x32x128, .f32⟩
  | 37 => ⟨S_, .f32⟩
  | 38 => ⟨S4096x32x128, .f32⟩
  | 39 => ⟨S4096x32x128, .f32⟩
  | 40 => ⟨S_, .f32⟩
  | 41 => ⟨S4096x32x128, .f32⟩
  | 42 => ⟨S4096x32x128, .f32⟩
  | 43 => ⟨S_, .f32⟩
  | 44 => ⟨S4096x32x128, .f32⟩
  | 45 => ⟨S4096x32x128, .f32⟩
  | 46 => ⟨S4096x32x128x1, .f32⟩
  | 47 => ⟨S4096x32x128x1, .f32⟩
  | 48 => ⟨S4096x32x128x2, .f32⟩
  | 49 => ⟨S4096x32x128x1, .f32⟩
  | 50 => ⟨S4096x32x128x2, .f32⟩
  | 51 => ⟨S4096x32x128x2, .f32⟩
  | 52 => ⟨S4096x32x256, .f32⟩
  | 53 => ⟨S4096x32x256, .f32⟩
  | 54 => ⟨S_, .f32⟩
  | 55 => ⟨S4096x32x256, .f32⟩
  | 56 => ⟨S4096x32x256, .f32⟩
  | 57 => ⟨S4096x32x256, .f32⟩
  | 58 => ⟨S4096x32x256, .f32⟩
  | 59 => ⟨S_, .f32⟩
  | 60 => ⟨S4096x32x256, .f32⟩
  | 61 => ⟨S4096x32x256, .f32⟩
  | 62 => ⟨S_, .f32⟩
  | 63 => ⟨S4096x32x256, .f32⟩
  | 64 => ⟨S4096x32x256, .f32⟩
  | 65 => ⟨S_, .f32⟩
  | 66 => ⟨S4096x32x256, .f32⟩
  | 67 => ⟨S4096x32x256, .f32⟩
  | 68 => ⟨S4096x32x256x1, .f32⟩
  | 69 => ⟨S4096x32x256x1, .f32⟩
  | 70 => ⟨S4096x32x256x2, .f32⟩
  | 71 => ⟨S4096x32x256x1, .f32⟩
  | 72 => ⟨S4096x32x256x2, .f32⟩
  | 73 => ⟨S4096x32x256x2, .f32⟩
  | 74 => ⟨S4096x32x512, .f32⟩
  | 75 => ⟨S4096x32x512, .f32⟩
  | 76 => ⟨S_, .f32⟩
  | 77 => ⟨S4096x32x512, .f32⟩
  | 78 => ⟨S4096x32x512, .f32⟩
  | 79 => ⟨S4096x32x512, .f32⟩
  | 80 => ⟨S4096x32x512, .f32⟩
  | 81 => ⟨S_, .f32⟩
  | 82 => ⟨S4096x32x512, .f32⟩
  | 83 => ⟨S4096x32x512, .f32⟩
  | 84 => ⟨S_, .f32⟩
  | 85 => ⟨S4096x32x512, .f32⟩
  | 86 => ⟨S4096x32x512, .f32⟩
  | 87 => ⟨S_, .f32⟩
  | 88 => ⟨S4096x32x512, .f32⟩
  | 89 => ⟨S4096x32x512, .f32⟩
  | 90 => ⟨S4096x32x512x1, .f32⟩
  | 91 => ⟨S4096x32x512x1, .f32⟩
  | 92 => ⟨S4096x32x512x2, .f32⟩
  | 93 => ⟨S4096x32x512x1, .f32⟩
  | 94 => ⟨S4096x32x512x2, .f32⟩
  | 95 => ⟨S4096x32x512x2, .f32⟩
  | 96 => ⟨S4096x32x1024, .f32⟩
  | 97 => ⟨S_, .f32⟩
  | 98 => ⟨S4096x32x2, .f32⟩
  | 99 => ⟨S4096x32x1, .f32⟩
  | 100 => ⟨S4096x32, .f32⟩
  | _ => ⟨S4096x32736, .f32⟩

abbrev hbmTy (i : Nat) : BufTy := match i / 128 with
  | 0 => hbmTy0_0 i
  | 1 => hbmTy0_1 i
  | _ => ⟨S4096x32736, .f32⟩

abbrev bufTy : (tb : Table) → Fin (tcTables nBuf tb) → BufTy
  | .hbm, ⟨i, _⟩ => hbmTy i
  | _, _ => ⟨S4096x32736, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_5 : Ref sig .tc := ⟨.hbm, 33, rfl⟩
abbrev main_v26 : Ref sig .tc := ⟨.hbm, 34, rfl⟩
abbrev main_v27 : Ref sig .tc := ⟨.hbm, 35, rfl⟩
abbrev main_cst_6 : Ref sig .tc := ⟨.hbm, 36, rfl⟩
abbrev main_v28 : Ref sig .tc := ⟨.hbm, 37, rfl⟩
abbrev main_v29 : Ref sig .tc := ⟨.hbm, 38, rfl⟩
abbrev main_cst_7 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_8 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_9 : Ref sig .tc := ⟨.hbm, 55, rfl⟩
abbrev main_v44 : Ref sig .tc := ⟨.hbm, 56, rfl⟩
abbrev main_v45 : Ref sig .tc := ⟨.hbm, 57, rfl⟩
abbrev main_cst_10 : Ref sig .tc := ⟨.hbm, 58, rfl⟩
abbrev main_v46 : Ref sig .tc := ⟨.hbm, 59, rfl⟩
abbrev main_v47 : Ref sig .tc := ⟨.hbm, 60, rfl⟩
abbrev main_cst_11 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_12 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_13 : Ref sig .tc := ⟨.hbm, 77, rfl⟩
abbrev main_v62 : Ref sig .tc := ⟨.hbm, 78, rfl⟩
abbrev main_v63 : Ref sig .tc := ⟨.hbm, 79, rfl⟩
abbrev main_cst_14 : Ref sig .tc := ⟨.hbm, 80, rfl⟩
abbrev main_v64 : Ref sig .tc := ⟨.hbm, 81, rfl⟩
abbrev main_v65 : Ref sig .tc := ⟨.hbm, 82, rfl⟩
abbrev main_cst_15 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_16 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_17 : Ref sig .tc := ⟨.hbm, 99, rfl⟩
abbrev main_v80 : Ref sig .tc := ⟨.hbm, 100, rfl⟩
abbrev main_v81 : Ref sig .tc := ⟨.hbm, 101, rfl⟩
abbrev main_cst_18 : Ref sig .tc := ⟨.hbm, 102, rfl⟩
abbrev main_v82 : Ref sig .tc := ⟨.hbm, 103, rfl⟩
abbrev main_v83 : Ref sig .tc := ⟨.hbm, 104, rfl⟩
abbrev main_cst_19 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_20 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_21 : Ref sig .tc := ⟨.hbm, 121, rfl⟩
abbrev main_v98 : Ref sig .tc := ⟨.hbm, 122, rfl⟩
abbrev main_v99 : Ref sig .tc := ⟨.hbm, 123, rfl⟩
abbrev main_cst_22 : Ref sig .tc := ⟨.hbm, 124, rfl⟩
abbrev main_v100 : Ref sig .tc := ⟨.hbm, 125, rfl⟩
abbrev main_v101 : Ref sig .tc := ⟨.hbm, 126, rfl⟩
abbrev main_cst_23 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_cst_24 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_25 : Ref sig .tc := ⟨.hbm, 143, rfl⟩
abbrev main_v116 : Ref sig .tc := ⟨.hbm, 144, rfl⟩
abbrev main_v117 : Ref sig .tc := ⟨.hbm, 145, rfl⟩
abbrev main_cst_26 : Ref sig .tc := ⟨.hbm, 146, rfl⟩
abbrev main_v118 : Ref sig .tc := ⟨.hbm, 147, rfl⟩
abbrev main_v119 : Ref sig .tc := ⟨.hbm, 148, rfl⟩
abbrev main_cst_27 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_cst_28 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_cst_29 : Ref sig .tc := ⟨.hbm, 165, rfl⟩
abbrev main_v134 : Ref sig .tc := ⟨.hbm, 166, rfl⟩
abbrev main_v135 : Ref sig .tc := ⟨.hbm, 167, rfl⟩
abbrev main_cst_30 : Ref sig .tc := ⟨.hbm, 168, rfl⟩
abbrev main_v136 : Ref sig .tc := ⟨.hbm, 169, rfl⟩
abbrev main_v137 : Ref sig .tc := ⟨.hbm, 170, rfl⟩
abbrev main_cst_31 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_cst_32 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_cst_33 : Ref sig .tc := ⟨.hbm, 187, rfl⟩
abbrev main_v152 : Ref sig .tc := ⟨.hbm, 188, rfl⟩
abbrev main_v153 : Ref sig .tc := ⟨.hbm, 189, rfl⟩
abbrev main_cst_34 : Ref sig .tc := ⟨.hbm, 190, rfl⟩
abbrev main_v154 : Ref sig .tc := ⟨.hbm, 191, rfl⟩
abbrev main_v155 : Ref sig .tc := ⟨.hbm, 192, rfl⟩
abbrev main_cst_35 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_cst_36 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_cst_37 : Ref sig .tc := ⟨.hbm, 209, rfl⟩
abbrev main_v170 : Ref sig .tc := ⟨.hbm, 210, rfl⟩
abbrev main_v171 : Ref sig .tc := ⟨.hbm, 211, rfl⟩
abbrev main_cst_38 : Ref sig .tc := ⟨.hbm, 212, rfl⟩
abbrev main_v172 : Ref sig .tc := ⟨.hbm, 213, rfl⟩
abbrev main_v173 : Ref sig .tc := ⟨.hbm, 214, rfl⟩
abbrev main_cst_39 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_cst_40 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩

abbrev nD : Nat := 1
abbrev τ : Topo := Topo.v7x

variable {F : FTy → Type} [FloatOps F]

class Facts₀ : Prop where
  shapeCasts_S4096x32736_S4096x32x1023 : S4096x32736.ShapeCasts S4096x32x1023
  slices_S4096x32x1023_S4096x32x1_0_0_0 : S4096x32x1023.Slices ![0, 0, 0] S4096x32x1
  bcast_S_S4096x32x1 : S_.BroadcastsInDim S4096x32x1 (![] : Fin 0 → Fin S4096x32x1.rank)
  bcast_S4096x32x1_S4096x32x1x1_0_1_2 : S4096x32x1.BroadcastsInDim S4096x32x1x1 (![0, 1, 2] : Fin 3 → Fin S4096x32x1x1.rank)
  concatenates_S4096x32x1x1_S4096x32x1x1_S4096x32x1x2_d3 : Shape.Concatenates [S4096x32x1x1, S4096x32x1x1] S4096x32x1x2 3
  bcast_S4096x32x1x1_S4096x32x1x2_0_1_2_3 : S4096x32x1x1.BroadcastsInDim S4096x32x1x2 (![0, 1, 2, 3] : Fin 4 → Fin S4096x32x1x2.rank)
  shapeCasts_S4096x32x1x2_S4096x32x2 : S4096x32x1x2.ShapeCasts S4096x32x2
  slices_S4096x32x1023_S4096x32x2_0_0_1 : S4096x32x1023.Slices ![0, 0, 1] S4096x32x2
  bcast_S_S4096x32x2 : S_.BroadcastsInDim S4096x32x2 (![] : Fin 0 → Fin S4096x32x2.rank)
  bcast_S4096x32x2_S4096x32x2x1_0_1_2 : S4096x32x2.BroadcastsInDim S4096x32x2x1 (![0, 1, 2] : Fin 3 → Fin S4096x32x2x1.rank)
  concatenates_S4096x32x2x1_S4096x32x2x1_S4096x32x2x2_d3 : Shape.Concatenates [S4096x32x2x1, S4096x32x2x1] S4096x32x2x2 3
  bcast_S4096x32x2x1_S4096x32x2x2_0_1_2_3 : S4096x32x2x1.BroadcastsInDim S4096x32x2x2 (![0, 1, 2, 3] : Fin 4 → Fin S4096x32x2x2.rank)
  shapeCasts_S4096x32x2x2_S4096x32x4 : S4096x32x2x2.ShapeCasts S4096x32x4
  slices_S4096x32x1023_S4096x32x4_0_0_3 : S4096x32x1023.Slices ![0, 0, 3] S4096x32x4
  bcast_S_S4096x32x4 : S_.BroadcastsInDim S4096x32x4 (![] : Fin 0 → Fin S4096x32x4.rank)
  bcast_S4096x32x4_S4096x32x4x1_0_1_2 : S4096x32x4.BroadcastsInDim S4096x32x4x1 (![0, 1, 2] : Fin 3 → Fin S4096x32x4x1.rank)
  concatenates_S4096x32x4x1_S4096x32x4x1_S4096x32x4x2_d3 : Shape.Concatenates [S4096x32x4x1, S4096x32x4x1] S4096x32x4x2 3
  bcast_S4096x32x4x1_S4096x32x4x2_0_1_2_3 : S4096x32x4x1.BroadcastsInDim S4096x32x4x2 (![0, 1, 2, 3] : Fin 4 → Fin S4096x32x4x2.rank)
  shapeCasts_S4096x32x4x2_S4096x32x8 : S4096x32x4x2.ShapeCasts S4096x32x8
  slices_S4096x32x1023_S4096x32x8_0_0_7 : S4096x32x1023.Slices ![0, 0, 7] S4096x32x8
  bcast_S_S4096x32x8 : S_.BroadcastsInDim S4096x32x8 (![] : Fin 0 → Fin S4096x32x8.rank)
  bcast_S4096x32x8_S4096x32x8x1_0_1_2 : S4096x32x8.BroadcastsInDim S4096x32x8x1 (![0, 1, 2] : Fin 3 → Fin S4096x32x8x1.rank)
  concatenates_S4096x32x8x1_S4096x32x8x1_S4096x32x8x2_d3 : Shape.Concatenates [S4096x32x8x1, S4096x32x8x1] S4096x32x8x2 3
  bcast_S4096x32x8x1_S4096x32x8x2_0_1_2_3 : S4096x32x8x1.BroadcastsInDim S4096x32x8x2 (![0, 1, 2, 3] : Fin 4 → Fin S4096x32x8x2.rank)
  shapeCasts_S4096x32x8x2_S4096x32x16 : S4096x32x8x2.ShapeCasts S4096x32x16
  slices_S4096x32x1023_S4096x32x16_0_0_15 : S4096x32x1023.Slices ![0, 0, 15] S4096x32x16
  bcast_S_S4096x32x16 : S_.BroadcastsInDim S4096x32x16 (![] : Fin 0 → Fin S4096x32x16.rank)
  bcast_S4096x32x16_S4096x32x16x1_0_1_2 : S4096x32x16.BroadcastsInDim S4096x32x16x1 (![0, 1, 2] : Fin 3 → Fin S4096x32x16x1.rank)
  concatenates_S4096x32x16x1_S4096x32x16x1_S4096x32x16x2_d3 : Shape.Concatenates [S4096x32x16x1, S4096x32x16x1] S4096x32x16x2 3
  bcast_S4096x32x16x1_S4096x32x16x2_0_1_2_3 : S4096x32x16x1.BroadcastsInDim S4096x32x16x2 (![0, 1, 2, 3] : Fin 4 → Fin S4096x32x16x2.rank)
  shapeCasts_S4096x32x16x2_S4096x32x32 : S4096x32x16x2.ShapeCasts S4096x32x32
  slices_S4096x32x1023_S4096x32x32_0_0_31 : S4096x32x1023.Slices ![0, 0, 31] S4096x32x32
  bcast_S_S4096x32x32 : S_.BroadcastsInDim S4096x32x32 (![] : Fin 0 → Fin S4096x32x32.rank)
  bcast_S4096x32x32_S4096x32x32x1_0_1_2 : S4096x32x32.BroadcastsInDim S4096x32x32x1 (![0, 1, 2] : Fin 3 → Fin S4096x32x32x1.rank)
  concatenates_S4096x32x32x1_S4096x32x32x1_S4096x32x32x2_d3 : Shape.Concatenates [S4096x32x32x1, S4096x32x32x1] S4096x32x32x2 3
  bcast_S4096x32x32x1_S4096x32x32x2_0_1_2_3 : S4096x32x32x1.BroadcastsInDim S4096x32x32x2 (![0, 1, 2, 3] : Fin 4 → Fin S4096x32x32x2.rank)
  shapeCasts_S4096x32x32x2_S4096x32x64 : S4096x32x32x2.ShapeCasts S4096x32x64
  slices_S4096x32x1023_S4096x32x64_0_0_63 : S4096x32x1023.Slices ![0, 0, 63] S4096x32x64
  bcast_S_S4096x32x64 : S_.BroadcastsInDim S4096x32x64 (![] : Fin 0 → Fin S4096x32x64.rank)
  bcast_S4096x32x64_S4096x32x64x1_0_1_2 : S4096x32x64.BroadcastsInDim S4096x32x64x1 (![0, 1, 2] : Fin 3 → Fin S4096x32x64x1.rank)
  concatenates_S4096x32x64x1_S4096x32x64x1_S4096x32x64x2_d3 : Shape.Concatenates [S4096x32x64x1, S4096x32x64x1] S4096x32x64x2 3
  bcast_S4096x32x64x1_S4096x32x64x2_0_1_2_3 : S4096x32x64x1.BroadcastsInDim S4096x32x64x2 (![0, 1, 2, 3] : Fin 4 → Fin S4096x32x64x2.rank)
  shapeCasts_S4096x32x64x2_S4096x32x128 : S4096x32x64x2.ShapeCasts S4096x32x128
  slices_S4096x32x1023_S4096x32x128_0_0_127 : S4096x32x1023.Slices ![0, 0, 127] S4096x32x128
  bcast_S_S4096x32x128 : S_.BroadcastsInDim S4096x32x128 (![] : Fin 0 → Fin S4096x32x128.rank)
  bcast_S4096x32x128_S4096x32x128x1_0_1_2 : S4096x32x128.BroadcastsInDim S4096x32x128x1 (![0, 1, 2] : Fin 3 → Fin S4096x32x128x1.rank)
  concatenates_S4096x32x128x1_S4096x32x128x1_S4096x32x128x2_d3 : Shape.Concatenates [S4096x32x128x1, S4096x32x128x1] S4096x32x128x2 3
  bcast_S4096x32x128x1_S4096x32x128x2_0_1_2_3 : S4096x32x128x1.BroadcastsInDim S4096x32x128x2 (![0, 1, 2, 3] : Fin 4 → Fin S4096x32x128x2.rank)
  shapeCasts_S4096x32x128x2_S4096x32x256 : S4096x32x128x2.ShapeCasts S4096x32x256
  slices_S4096x32x1023_S4096x32x256_0_0_255 : S4096x32x1023.Slices ![0, 0, 255] S4096x32x256
  bcast_S_S4096x32x256 : S_.BroadcastsInDim S4096x32x256 (![] : Fin 0 → Fin S4096x32x256.rank)
  bcast_S4096x32x256_S4096x32x256x1_0_1_2 : S4096x32x256.BroadcastsInDim S4096x32x256x1 (![0, 1, 2] : Fin 3 → Fin S4096x32x256x1.rank)
  concatenates_S4096x32x256x1_S4096x32x256x1_S4096x32x256x2_d3 : Shape.Concatenates [S4096x32x256x1, S4096x32x256x1] S4096x32x256x2 3
  bcast_S4096x32x256x1_S4096x32x256x2_0_1_2_3 : S4096x32x256x1.BroadcastsInDim S4096x32x256x2 (![0, 1, 2, 3] : Fin 4 → Fin S4096x32x256x2.rank)
  shapeCasts_S4096x32x256x2_S4096x32x512 : S4096x32x256x2.ShapeCasts S4096x32x512
  slices_S4096x32x1023_S4096x32x512_0_0_511 : S4096x32x1023.Slices ![0, 0, 511] S4096x32x512
  bcast_S_S4096x32x512 : S_.BroadcastsInDim S4096x32x512 (![] : Fin 0 → Fin S4096x32x512.rank)
  bcast_S4096x32x512_S4096x32x512x1_0_1_2 : S4096x32x512.BroadcastsInDim S4096x32x512x1 (![0, 1, 2] : Fin 3 → Fin S4096x32x512x1.rank)
  concatenates_S4096x32x512x1_S4096x32x512x1_S4096x32x512x2_d3 : Shape.Concatenates [S4096x32x512x1, S4096x32x512x1] S4096x32x512x2 3
  bcast_S4096x32x512x1_S4096x32x512x2_0_1_2_3 : S4096x32x512x1.BroadcastsInDim S4096x32x512x2 (![0, 1, 2, 3] : Fin 4 → Fin S4096x32x512x2.rank)
  shapeCasts_S4096x32x512x2_S4096x32x1024 : S4096x32x512x2.ShapeCasts S4096x32x1024
  reducesTo_S4096x32x512x2_S4096x32x2_d2 : S4096x32x512x2.ReducesTo [2] S4096x32x2
  h_S_ : 0 < S_.numel
  slices_S4096x32x2_S4096x32x1_0_0_1 : S4096x32x2.Slices ![0, 0, 1] S4096x32x1
  shapeCasts_S4096x32x1_S4096x32 : S4096x32x1.ShapeCasts S4096x32

variable [Facts₀]

class Facts : Prop extends Facts₀ where

variable [Facts]
-- ==== Proof.TreeSpec.lean ====
/-
  One soft decision tree of depth ten, as mathematics, and one LEVEL of it as each program spells it.

  A tree has 1023 forks, stored level by level: level `i` (`i = 0 … 9`) has `2^i` forks at positions
  `2^i - 1 + k`, `k < 2^i`. A fork with logit `x` on level `i` sends the fraction
  `g = logistic (s_i · x)` of what reaches it to its right child and `1 - g` to its left child, where
  `s_i = 2^(i-9)` (kept here as the literal word both programs spell). Writing `q_i k` for what reaches fork
  `k` of level `i`: `q_0 0 = 1`, `q_(i+1) (2k) = q_i k · (1 - g_i k)`, `q_(i+1) (2k+1) = q_i k · g_i k`.
  The tree's value is what leaves the last level to the right: `∑ k < 512, q_9 k · g_9 k`.

  Rows are functions on ℕ that vanish past their length, so that a row of one width can be fed to the
  next level without a change of index type.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

namespace Cert.Tree

open Idealize.ShloMosaic Idealize.ShloMosaic.ValueIdx

/-! ## The recursion on rows -/

/-- The fraction a fork with logit `x` sends right, at scale `s`. -/
def branch (s x : EReal) : EReal := Ideal.logistic (s * x)

/-- One level: from what reaches each fork of a level (`q`) and the tree's logits (`ℓ`, the level's forks starting at
    position `o`), what reaches each fork of the next level. -/
def rowStep (s : EReal) (o : ℕ) (ℓ q : ℕ → EReal) : ℕ → EReal := fun k =>
  q (k / 2) * (if k % 2 = 0 then 1 - branch s (ℓ (o + k / 2)) else branch s (ℓ (o + k / 2)))

/-- Row `(b, t)` of a rank-3 array, extended by zero. -/
def rowOf {B T n : ℕ} (X : (⟨3, ![B, T, n]⟩ : Shape).Idx → EReal) (b : Fin B) (t : Fin T) : ℕ → EReal :=
  fun f => if h : f < n then X (ix3 b t ⟨f, h⟩) else 0

theorem rowOf_lt {B T n : ℕ} (X : (⟨3, ![B, T, n]⟩ : Shape).Idx → EReal) (b : Fin B) (t : Fin T) (f : ℕ) (h : f < n) :
    rowOf X b t f = X (ix3 b t ⟨f, h⟩) := dif_pos h

theorem rowOf_ge {B T n : ℕ} (X : (⟨3, ![B, T, n]⟩ : Shape).Idx → EReal) (b : Fin B) (t : Fin T) (f : ℕ) (h : n ≤ f) :
    rowOf X b t f = 0 := dif_neg (Nat.not_lt.2 h)

/-! ## One level as the kernel spells it -/

section Kernel
variable {B T w w2 : ℕ}

/-- The kernel's level: slice the level's logits, scale, `logistic`; multiply what reaches each fork by `1 - g` and by
    `g`; lay the two products side by side on a new last axis and merge it into the fork axis. -/
def kLevel (sw : BitVec 32) (o : ℕ)
    (hs : (⟨3, ![B, T, 1023]⟩ : Shape).Slices ![0, 0, o] ⟨3, ![B, T, w]⟩)
    (hc1 : (⟨3, ![B, T, w]⟩ : Shape).ShapeCasts ⟨4, ![B, T, w, 1]⟩)
    (hcat : Shape.Concatenates [⟨4, ![B, T, w, 1]⟩, ⟨4, ![B, T, w, 1]⟩] ⟨4, ![B, T, w, 2]⟩ 3)
    (hc2 : (⟨4, ![B, T, w, 2]⟩ : Shape).ShapeCasts ⟨3, ![B, T, w2]⟩)
    (X : FVec Ideal ⟨3, ![B, T, 1023]⟩ .f32) (q : FVec Ideal ⟨3, ![B, T, w]⟩ .f32) : FVec Ideal ⟨3, ![B, T, w2]⟩ .f32 :=
  shapeCast ⟨3, ![B, T, w2]⟩
    (concatenate ⟨4, ![B, T, w, 2]⟩ 3
      [⟨⟨4, ![B, T, w, 1]⟩, shapeCast ⟨4, ![B, T, w, 1]⟩
          (mulf q (subf (broadcast ⟨3, ![B, T, w]⟩ (Scalar.ofBits .f32 0x3F800000#32))
            (logistic (mulf (broadcast ⟨3, ![B, T, w]⟩ (Scalar.ofBits .f32 sw)) (extractStridedSlice ⟨3, ![B, T, w]⟩ ![0, 0, o] X hs))))) hc1⟩,
       ⟨⟨4, ![B, T, w, 1]⟩, shapeCast ⟨4, ![B, T, w, 1]⟩
          (mulf q (logistic (mulf (broadcast ⟨3, ![B, T, w]⟩ (Scalar.ofBits .f32 sw)) (extractStridedSlice ⟨3, ![B, T, w]⟩ ![0, 0, o] X hs)))) hc1⟩]
      hcat) hc2

/-- A slice of the fork axis read at `(b, t, k)` is the array at `(b, t, o + k)`. -/
theorem slice_fork (o : ℕ) (hs : (⟨3, ![B, T, 1023]⟩ : Shape).Slices ![0, 0, o] ⟨3, ![B, T, w]⟩)
    (X : (⟨3, ![B, T, 1023]⟩ : Shape).Idx → EReal) (b : Fin B) (t : Fin T) (k : ℕ) (hk : k < w) (hok : o + k < 1023) :
    extractStridedSlice ⟨3, ![B, T, w]⟩ ![0, 0, o] X hs (ix3 b t ⟨k, hk⟩) = X (ix3 b t ⟨o + k, hok⟩) :=
  extractStridedSlice_apply _ X hs _ _ fun a => by
    match a with
    | ⟨0, _⟩ => show b.val = 0 + b.val; omega
    | ⟨1, _⟩ => show t.val = 0 + t.val; omega
    | ⟨2, _⟩ => rfl

/-- THE KERNEL'S LEVEL IS THE RECURSION'S STEP, row by row: entry `k` of the merged axis is entry `k % 2` of the new axis
    at fork `k / 2` (the two row-major positions agree: `(u·w + k/2)·2 + k%2 = u·(2w) + k`), which is the first product
    when `k` is even and the second when it is odd. -/
theorem kLevel_row (sw : BitVec 32) (o : ℕ) (hw : w2 = 2 * w) (ho : o + w ≤ 1023)
    (hs : (⟨3, ![B, T, 1023]⟩ : Shape).Slices ![0, 0, o] ⟨3, ![B, T, w]⟩)
    (hc1 : (⟨3, ![B, T, w]⟩ : Shape).ShapeCasts ⟨4, ![B, T, w, 1]⟩)
    (hcat : Shape.Concatenates [⟨4, ![B, T, w, 1]⟩, ⟨4, ![B, T, w, 1]⟩] ⟨4, ![B, T, w, 2]⟩ 3)
    (hc2 : (⟨4, ![B, T, w, 2]⟩ : Shape).ShapeCasts ⟨3, ![B, T, w2]⟩)
    (X : FVec Ideal ⟨3, ![B, T, 1023]⟩ .f32) (q : FVec Ideal ⟨3, ![B, T, w]⟩ .f32) (b : Fin B) (t : Fin T) :
    rowOf (kLevel sw o hs hc1 hcat hc2 X q) b t = rowStep (Ideal.ofBits .f32 sw) o (rowOf X b t) (rowOf q b t) := by
  funext k
  unfold rowStep
  by_cases hk : k < w2
  · have hk2 : k / 2 < w := by omega
    have hm : k % 2 < 2 := Nat.mod_lt _ (by norm_num)
    have hok : o + k / 2 < 1023 := by omega
    rw [rowOf_lt _ b t k hk, rowOf_lt q b t (k / 2) hk2, rowOf_lt X b t (o + k / 2) hok]
    unfold kLevel
    refine (shapeCast_apply _ hc2 (ix3 b t ⟨k, hk⟩) (ix4 b t ⟨k / 2, hk2⟩ ⟨k % 2, hm⟩) ?_).trans ?_
    · rw [Shape.rowMajor_val_four, Shape.rowMajor_val_three]
      show ((b.val * T + t.val) * w + k / 2) * 2 + k % 2 = (b.val * T + t.val) * w2 + k
      subst hw
      have h2 := Nat.div_add_mod k 2
      calc ((b.val * T + t.val) * w + k / 2) * 2 + k % 2
          = (b.val * T + t.val) * (2 * w) + (2 * (k / 2) + k % 2) := by ring
        _ = _ := by rw [h2]
    · have hpos : (ix3 b t (⟨k / 2, hk2⟩ : Fin w) : (⟨3, ![B, T, w]⟩ : Shape).Idx) = ix3 b t ⟨k / 2, hk2⟩ := rfl
      have hcast : ((⟨3, ![B, T, w]⟩ : Shape).rowMajor (ix3 b t ⟨k / 2, hk2⟩)).val
          = ((⟨4, ![B, T, w, 1]⟩ : Shape).rowMajor (ix4 b t ⟨k / 2, hk2⟩ (0 : Fin 1))).val := by
        rw [Shape.rowMajor_val_four, Shape.rowMajor_val_three]
        show (b.val * T + t.val) * w + k / 2 = ((b.val * T + t.val) * w + k / 2) * 1 + 0
        omega
      by_cases he : k % 2 = 0
      · rw [if_pos he]
        refine (concatenate_pair_apply_left _ _ _ hcat _ rfl (ix4 b t ⟨k / 2, hk2⟩ (0 : Fin 1)) ?_).trans ?_
        · intro a
          match a with
          | ⟨0, _⟩ => rfl
          | ⟨1, _⟩ => rfl
          | ⟨2, _⟩ => rfl
          | ⟨3, _⟩ => exact he.symm
        · refine (shapeCast_apply _ hc1 _ (ix3 b t ⟨k / 2, hk2⟩) hcast).trans ?_
          show q _ * (Ideal.ofBits .f32 0x3F800000#32
            - Ideal.logistic (Ideal.ofBits .f32 sw * extractStridedSlice ⟨3, ![B, T, w]⟩ ![0, 0, o] X hs (ix3 b t ⟨k / 2, hk2⟩))) = _
          rw [slice_fork o hs X b t (k / 2) hk2 hok, Ideal.ofBits_one_f32]
          rfl
      · rw [if_neg he]
        have he1 : k % 2 = 1 := by omega
        refine (concatenate_pair_apply_right _ _ _ hcat _ rfl rfl (ix4 b t ⟨k / 2, hk2⟩ (0 : Fin 1)) ?_ ?_).trans ?_
        · intro a hne
          match a, hne with
          | ⟨0, _⟩, _ => rfl
          | ⟨1, _⟩, _ => rfl
          | ⟨2, _⟩, _ => rfl
          | ⟨3, _⟩, hne => exact absurd rfl hne
        · show 0 + 1 = k % 2
          omega
        · refine (shapeCast_apply _ hc1 _ (ix3 b t ⟨k / 2, hk2⟩) hcast).trans ?_
          show q _ * Ideal.logistic (Ideal.ofBits .f32 sw * extractStridedSlice ⟨3, ![B, T, w]⟩ ![0, 0, o] X hs (ix3 b t ⟨k / 2, hk2⟩)) = _
          rw [slice_fork o hs X b t (k / 2) hk2 hok]
          rfl
  · have hk2 : w ≤ k / 2 := by omega
    rw [rowOf_ge _ b t k (by omega), rowOf_ge q b t (k / 2) hk2, zero_mul]

end Kernel

/-! ## One level as the reference spells it -/

section Reference
variable {B T w w2 : ℕ}

/-- The reference's branch fraction: `1 / (1 + exp (-(s · x)))` in host operations, over a level's slice of the logits. -/
def rSig (sw : BitVec 32) (o : ℕ)
    (hs : (⟨3, ![B, T, 1023]⟩ : Shape).Slices ![0, 0, o] ⟨3, ![B, T, w]⟩)
    (hb0 : (⟨0, ![]⟩ : Shape).BroadcastsInDim ⟨3, ![B, T, w]⟩ ![])
    (X : FVec Ideal ⟨3, ![B, T, 1023]⟩ .f32) : FVec Ideal ⟨3, ![B, T, w]⟩ .f32 :=
  Host.divf (broadcastInDim ⟨3, ![B, T, w]⟩ ![] hb0 (constant ⟨0, ![]⟩ .f32 0x3F800000#32))
    (addf (broadcastInDim ⟨3, ![B, T, w]⟩ ![] hb0 (constant ⟨0, ![]⟩ .f32 0x3F800000#32))
      (Host.exp (Host.negf (mulf (broadcastInDim ⟨3, ![B, T, w]⟩ ![] hb0 (constant ⟨0, ![]⟩ .f32 sw))
        (extractStridedSlice ⟨3, ![B, T, w]⟩ ![0, 0, o] X hs)))))

/-- At an entry the host's expansion is the branch fraction: `logistic` at the exact instance IS `1 / (1 + exp (-·))`, and the
    literal word of one is the real one. -/
theorem rSig_apply (sw : BitVec 32) (o : ℕ)
    (hs : (⟨3, ![B, T, 1023]⟩ : Shape).Slices ![0, 0, o] ⟨3, ![B, T, w]⟩)
    (hb0 : (⟨0, ![]⟩ : Shape).BroadcastsInDim ⟨3, ![B, T, w]⟩ ![])
    (X : FVec Ideal ⟨3, ![B, T, 1023]⟩ .f32) (b : Fin B) (t : Fin T) (k : ℕ) (hk : k < w) (hok : o + k < 1023) :
    rSig sw o hs hb0 X (ix3 b t ⟨k, hk⟩) = branch (Ideal.ofBits .f32 sw) (X (ix3 b t ⟨o + k, hok⟩)) := by
  unfold rSig branch Ideal.logistic
  show Ideal.div (broadcastInDim ⟨3, ![B, T, w]⟩ ![] hb0 (constant (F := Ideal) ⟨0, ![]⟩ .f32 0x3F800000#32) _)
      (broadcastInDim ⟨3, ![B, T, w]⟩ ![] hb0 (constant (F := Ideal) ⟨0, ![]⟩ .f32 0x3F800000#32) _
        + Ideal.exp (-(broadcastInDim ⟨3, ![B, T, w]⟩ ![] hb0 (constant (F := Ideal) ⟨0, ![]⟩ .f32 sw) _
            * extractStridedSlice ⟨3, ![B, T, w]⟩ ![0, 0, o] X hs (ix3 b t ⟨k, hk⟩)))) = _
  rw [broadcastInDim_scalar_apply, broadcastInDim_scalar_apply, constant_apply, constant_apply, slice_fork o hs X b t k hk hok,
    Ideal.ofBits_one_f32]

/-- A rank-3 array given a unit last axis, read at `(b, t, k, 0)`. -/
theorem bcast_col (hb1 : (⟨3, ![B, T, w]⟩ : Shape).BroadcastsInDim ⟨4, ![B, T, w, 1]⟩ ![0, 1, 2])
    (v : (⟨3, ![B, T, w]⟩ : Shape).Idx → EReal) (b : Fin B) (t : Fin T) (k : Fin w) (e : Fin 1) :
    broadcastInDim ⟨4, ![B, T, w, 1]⟩ ![0, 1, 2] hb1 v (ix4 b t k e) = v (ix3 b t k) :=
  broadcastInDim_apply _ hb1 v _ _ fun a => by
    match a with
    | ⟨0, _⟩ => show b.val = if B = 1 then 0 else b.val; have := b.isLt; split <;> omega
    | ⟨1, _⟩ => show t.val = if T = 1 then 0 else t.val; have := t.isLt; split <;> omega
    | ⟨2, _⟩ => show k.val = if w = 1 then 0 else k.val; have := k.isLt; split <;> omega

/-- The unit last axis repeated twice, read at `(b, t, k, e)`. -/
theorem bcast_pair (hb2 : (⟨4, ![B, T, w, 1]⟩ : Shape).BroadcastsInDim ⟨4, ![B, T, w, 2]⟩ ![0, 1, 2, 3])
    (u : (⟨4, ![B, T, w, 1]⟩ : Shape).Idx → EReal) (b : Fin B) (t : Fin T) (k : Fin w) (e : Fin 2) :
    broadcastInDim ⟨4, ![B, T, w, 2]⟩ ![0, 1, 2, 3] hb2 u (ix4 b t k e) = u (ix4 b t k (0 : Fin 1)) :=
  broadcastInDim_apply _ hb2 u _ _ fun a => by
    match a with
    | ⟨0, _⟩ => show b.val = if B = 1 then 0 else b.val; have := b.isLt; split <;> omega
    | ⟨1, _⟩ => show t.val = if T = 1 then 0 else t.val; have := t.isLt; split <;> omega
    | ⟨2, _⟩ => show k.val = if w = 1 then 0 else k.val; have := k.isLt; split <;> omega
    | ⟨3, _⟩ => rfl

/-- The reference's level: the branch fraction and its complement laid side by side on a new last axis, what reaches each fork
    repeated along that axis, their product, and the new axis merged into the fork axis. -/
def rLevel (sw : BitVec 32) (o : ℕ)
    (hs : (⟨3, ![B, T, 1023]⟩ : Shape).Slices ![0, 0, o] ⟨3, ![B, T, w]⟩)
    (hb0 : (⟨0, ![]⟩ : Shape).BroadcastsInDim ⟨3, ![B, T, w]⟩ ![])
    (hb1 : (⟨3, ![B, T, w]⟩ : Shape).BroadcastsInDim ⟨4, ![B, T, w, 1]⟩ ![0, 1, 2])
    (hb2 : (⟨4, ![B, T, w, 1]⟩ : Shape).BroadcastsInDim ⟨4, ![B, T, w, 2]⟩ ![0, 1, 2, 3])
    (hcat : Shape.Concatenates [⟨4, ![B, T, w, 1]⟩, ⟨4, ![B, T, w, 1]⟩] ⟨4, ![B, T, w, 2]⟩ 3)
    (hc2 : (⟨4, ![B, T, w, 2]⟩ : Shape).ShapeCasts ⟨3, ![B, T, w2]⟩)
    (X : FVec Ideal ⟨3, ![B, T, 1023]⟩ .f32) (q : FVec Ideal ⟨3, ![B, T, w]⟩ .f32) : FVec Ideal ⟨3, ![B, T, w2]⟩ .f32 :=
  shapeCast ⟨3, ![B, T, w2]⟩
    (mulf (broadcastInDim ⟨4, ![B, T, w, 2]⟩ ![0, 1, 2, 3] hb2 (broadcastInDim ⟨4, ![B, T, w, 1]⟩ ![0, 1, 2] hb1 q))
      (concatenate ⟨4, ![B, T, w, 2]⟩ 3
        [⟨⟨4, ![B, T, w, 1]⟩, broadcastInDim ⟨4, ![B, T, w, 1]⟩ ![0, 1, 2] hb1
            (subf (broadcastInDim ⟨3, ![B, T, w]⟩ ![] hb0 (constant ⟨0, ![]⟩ .f32 0x3F800000#32)) (rSig sw o hs hb0 X))⟩,
         ⟨⟨4, ![B, T, w, 1]⟩, broadcastInDim ⟨4, ![B, T, w, 1]⟩ ![0, 1, 2] hb1 (rSig sw o hs hb0 X)⟩]
        hcat)) hc2

/-- THE REFERENCE'S LEVEL IS THE RECURSION'S STEP, row by row, for the same reason as the kernel's. -/
theorem rLevel_row (sw : BitVec 32) (o : ℕ) (hw : w2 = 2 * w) (ho : o + w ≤ 1023)
    (hs : (⟨3, ![B, T, 1023]⟩ : Shape).Slices ![0, 0, o] ⟨3, ![B, T, w]⟩)
    (hb0 : (⟨0, ![]⟩ : Shape).BroadcastsInDim ⟨3, ![B, T, w]⟩ ![])
    (hb1 : (⟨3, ![B, T, w]⟩ : Shape).BroadcastsInDim ⟨4, ![B, T, w, 1]⟩ ![0, 1, 2])
    (hb2 : (⟨4, ![B, T, w, 1]⟩ : Shape).BroadcastsInDim ⟨4, ![B, T, w, 2]⟩ ![0, 1, 2, 3])
    (hcat : Shape.Concatenates [⟨4, ![B, T, w, 1]⟩, ⟨4, ![B, T, w, 1]⟩] ⟨4, ![B, T, w, 2]⟩ 3)
    (hc2 : (⟨4, ![B, T, w, 2]⟩ : Shape).ShapeCasts ⟨3, ![B, T, w2]⟩)
    (X : FVec Ideal ⟨3, ![B, T, 1023]⟩ .f32) (q : FVec Ideal ⟨3, ![B, T, w]⟩ .f32) (b : Fin B) (t : Fin T) :
    rowOf (rLevel sw o hs hb0 hb1 hb2 hcat hc2 X q) b t = rowStep (Ideal.ofBits .f32 sw) o (rowOf X b t) (rowOf q b t) := by
  funext k
  unfold rowStep
  by_cases hk : k < w2
  · have hk2 : k / 2 < w := by omega
    have hm : k % 2 < 2 := Nat.mod_lt _ (by norm_num)
    have hok : o + k / 2 < 1023 := by omega
    rw [rowOf_lt _ b t k hk, rowOf_lt q b t (k / 2) hk2, rowOf_lt X b t (o + k / 2) hok]
    unfold rLevel
    refine (shapeCast_apply _ hc2 (ix3 b t ⟨k, hk⟩) (ix4 b t ⟨k / 2, hk2⟩ ⟨k % 2, hm⟩) ?_).trans ?_
    · rw [Shape.rowMajor_val_four, Shape.rowMajor_val_three]
      show ((b.val * T + t.val) * w + k / 2) * 2 + k % 2 = (b.val * T + t.val) * w2 + k
      subst hw
      have h2 := Nat.div_add_mod k 2
      calc ((b.val * T + t.val) * w + k / 2) * 2 + k % 2
          = (b.val * T + t.val) * (2 * w) + (2 * (k / 2) + k % 2) := by ring
        _ = _ := by rw [h2]
    · refine (mulf_apply _ _ _).trans ?_
      rw [bcast_pair hb2, bcast_col hb1]
      congr 1
      by_cases he : k % 2 = 0
      · rw [if_pos he]
        refine (concatenate_pair_apply_left _ _ _ hcat _ rfl (ix4 b t ⟨k / 2, hk2⟩ (0 : Fin 1)) ?_).trans ?_
        · intro a
          match a with
          | ⟨0, _⟩ => rfl
          | ⟨1, _⟩ => rfl
          | ⟨2, _⟩ => rfl
          | ⟨3, _⟩ => exact he.symm
        · rw [bcast_col hb1]
          show broadcastInDim ⟨3, ![B, T, w]⟩ ![] hb0 (constant (F := Ideal) ⟨0, ![]⟩ .f32 0x3F800000#32) _
            - rSig sw o hs hb0 X (ix3 b t ⟨k / 2, hk2⟩) = _
          rw [broadcastInDim_scalar_apply, constant_apply, Ideal.ofBits_one_f32, rSig_apply sw o hs hb0 X b t (k / 2) hk2 hok]
      · rw [if_neg he]
        have he1 : k % 2 = 1 := by omega
        refine (concatenate_pair_apply_right _ _ _ hcat _ rfl rfl (ix4 b t ⟨k / 2, hk2⟩ (0 : Fin 1)) ?_ ?_).trans ?_
        · intro a hne
          match a, hne with
          | ⟨0, _⟩, _ => rfl
          | ⟨1, _⟩, _ => rfl
          | ⟨2, _⟩, _ => rfl
          | ⟨3, _⟩, hne => exact absurd rfl hne
        · show 0 + 1 = k % 2
          omega
        · rw [bcast_col hb1, rSig_apply sw o hs hb0 X b t (k / 2) hk2 hok]
  · have hk2 : w ≤ k / 2 := by omega
    rw [rowOf_ge _ b t k (by omega), rowOf_ge q b t (k / 2) hk2, zero_mul]

end Reference

/-! ## The whole tree -/

/-- The scale of level `i`, `2^(i-9)`, as the f32 word both programs spell. -/
def sc : ℕ → BitVec 32
  | 0 => 0x3B000000#32
  | 1 => 0x3B800000#32
  | 2 => 0x3C000000#32
  | 3 => 0x3C800000#32
  | 4 => 0x3D000000#32
  | 5 => 0x3D800000#32
  | 6 => 0x3E000000#32
  | 7 => 0x3E800000#32
  | 8 => 0x3F000000#32
  | _ => 0x3F800000#32

/-- What reaches each fork of level `i` of the tree with logits `ℓ`: one at the root, then the step, level by level. -/
def reach (ℓ : ℕ → EReal) : ℕ → ℕ → EReal
  | 0 => fun k => if k < 1 then 1 else 0
  | i + 1 => rowStep (Ideal.ofBits .f32 (sc i)) (2 ^ i - 1) ℓ (reach ℓ i)

/-- The tree's value: what leaves the last level to the right. -/
def treeOut (ℓ : ℕ → EReal) : EReal :=
  ∑ k : Fin 512, reach ℓ 9 k.val * branch (Ideal.ofBits .f32 (sc 9)) (ℓ (511 + k.val))

/-! ## The last step as each program spells it -/

section Last
variable {B T : ℕ}

/-- The kernel's last step: the last level's branch fraction times what reaches each fork, summed over the fork axis. -/
def kLast (hs : (⟨3, ![B, T, 1023]⟩ : Shape).Slices ![0, 0, 511] ⟨3, ![B, T, 512]⟩)
    (hred : (⟨3, ![B, T, 512]⟩ : Shape).Reduces [2] ⟨2, ![B, T]⟩)
    (X : FVec Ideal ⟨3, ![B, T, 1023]⟩ .f32) (q : FVec Ideal ⟨3, ![B, T, 512]⟩ .f32) : FVec Ideal ⟨2, ![B, T]⟩ .f32 :=
  multiReduction .add [2] ⟨2, ![B, T]⟩
    (mulf q (logistic (mulf (broadcast ⟨3, ![B, T, 512]⟩ (Scalar.ofBits .f32 0x3F800000#32))
      (extractStridedSlice ⟨3, ![B, T, 512]⟩ ![0, 0, 511] X hs))))
    0x00000000#32 hred (.inl rfl) rfl

theorem kLast_apply (hs : (⟨3, ![B, T, 1023]⟩ : Shape).Slices ![0, 0, 511] ⟨3, ![B, T, 512]⟩)
    (hred : (⟨3, ![B, T, 512]⟩ : Shape).Reduces [2] ⟨2, ![B, T]⟩)
    (X : FVec Ideal ⟨3, ![B, T, 1023]⟩ .f32) (q : FVec Ideal ⟨3, ![B, T, 512]⟩ .f32) (b : Fin B) (t : Fin T) :
    kLast hs hred X q (ix2 b t)
      = ∑ k : Fin 512, rowOf q b t k.val * branch (Ideal.ofBits .f32 0x3F800000#32) (rowOf X b t (511 + k.val)) := by
  unfold kLast
  refine (Ideal.multiReduction_add_single _ 0x00000000#32 hred (.inl rfl) rfl (ix2 b t)).trans ?_
  refine Finset.sum_congr rfl fun k _ => ?_
  have hl : hred.lift (ix2 b t) k = ix3 b t k := by
    funext a
    match a with
    | ⟨0, _⟩ => exact Fin.ext rfl
    | ⟨1, _⟩ => exact Fin.ext rfl
    | ⟨2, _⟩ => exact Fin.ext rfl
  have hk : k.val < 512 := k.isLt
  rw [hl, rowOf_lt q b t k.val hk, rowOf_lt X b t (511 + k.val) (by omega)]
  show q _ * Ideal.logistic (Ideal.ofBits .f32 0x3F800000#32
    * extractStridedSlice ⟨3, ![B, T, 512]⟩ ![0, 0, 511] X hs (ix3 b t ⟨k.val, hk⟩)) = _
  rw [slice_fork 511 hs X b t k.val hk (by omega)]
  rfl

end Last

/-! ## The reference's last step -/

section LastRef
variable {B T w : ℕ}

/-- The product the reference forms on the new last axis, before that axis is merged (a level) or summed over (the last
    step). -/
def rPair (sw : BitVec 32) (o : ℕ)
    (hs : (⟨3, ![B, T, 1023]⟩ : Shape).Slices ![0, 0, o] ⟨3, ![B, T, w]⟩)
    (hb0 : (⟨0, ![]⟩ : Shape).BroadcastsInDim ⟨3, ![B, T, w]⟩ ![])
    (hb1 : (⟨3, ![B, T, w]⟩ : Shape).BroadcastsInDim ⟨4, ![B, T, w, 1]⟩ ![0, 1, 2])
    (hb2 : (⟨4, ![B, T, w, 1]⟩ : Shape).BroadcastsInDim ⟨4, ![B, T, w, 2]⟩ ![0, 1, 2, 3])
    (hcat : Shape.Concatenates [⟨4, ![B, T, w, 1]⟩, ⟨4, ![B, T, w, 1]⟩] ⟨4, ![B, T, w, 2]⟩ 3)
    (X : FVec Ideal ⟨3, ![B, T, 1023]⟩ .f32) (q : FVec Ideal ⟨3, ![B, T, w]⟩ .f32) : FVec Ideal ⟨4, ![B, T, w, 2]⟩ .f32 :=
  mulf (broadcastInDim ⟨4, ![B, T, w, 2]⟩ ![0, 1, 2, 3] hb2 (broadcastInDim ⟨4, ![B, T, w, 1]⟩ ![0, 1, 2] hb1 q))
    (concatenate ⟨4, ![B, T, w, 2]⟩ 3
      [⟨⟨4, ![B, T, w, 1]⟩, broadcastInDim ⟨4, ![B, T, w, 1]⟩ ![0, 1, 2] hb1
          (subf (broadcastInDim ⟨3, ![B, T, w]⟩ ![] hb0 (constant ⟨0, ![]⟩ .f32 0x3F800000#32)) (rSig sw o hs hb0 X))⟩,
       ⟨⟨4, ![B, T, w, 1]⟩, broadcastInDim ⟨4, ![B, T, w, 1]⟩ ![0, 1, 2] hb1 (rSig sw o hs hb0 X)⟩]
      hcat)

/-- Its right-hand column: what reaches a fork times the fork's branch fraction. -/
theorem rPair_apply_right (sw : BitVec 32) (o : ℕ)
    (hs : (⟨3, ![B, T, 1023]⟩ : Shape).Slices ![0, 0, o] ⟨3, ![B, T, w]⟩)
    (hb0 : (⟨0, ![]⟩ : Shape).BroadcastsInDim ⟨3, ![B, T, w]⟩ ![])
    (hb1 : (⟨3, ![B, T, w]⟩ : Shape).BroadcastsInDim ⟨4, ![B, T, w, 1]⟩ ![0, 1, 2])
    (hb2 : (⟨4, ![B, T, w, 1]⟩ : Shape).BroadcastsInDim ⟨4, ![B, T, w, 2]⟩ ![0, 1, 2, 3])
    (hcat : Shape.Concatenates [⟨4, ![B, T, w, 1]⟩, ⟨4, ![B, T, w, 1]⟩] ⟨4, ![B, T, w, 2]⟩ 3)
    (X : FVec Ideal ⟨3, ![B, T, 1023]⟩ .f32) (q : FVec Ideal ⟨3, ![B, T, w]⟩ .f32)
    (b : Fin B) (t : Fin T) (k : ℕ) (hk : k < w) (hok : o + k < 1023) :
    rPair sw o hs hb0 hb1 hb2 hcat X q (ix4 b t ⟨k, hk⟩ (1 : Fin 2))
      = q (ix3 b t ⟨k, hk⟩) * branch (Ideal.ofBits .f32 sw) (X (ix3 b t ⟨o + k, hok⟩)) := by
  unfold rPair
  refine (mulf_apply _ _ _).trans ?_
  rw [bcast_pair hb2, bcast_col hb1]
  congr 1
  refine (concatenate_pair_apply_right _ _ _ hcat _ rfl rfl (ix4 b t ⟨k, hk⟩ (0 : Fin 1)) ?_ ?_).trans ?_
  · intro a hne
    match a, hne with
    | ⟨0, _⟩, _ => rfl
    | ⟨1, _⟩, _ => rfl
    | ⟨2, _⟩, _ => rfl
    | ⟨3, _⟩, hne => exact absurd rfl hne
  · rfl
  · rw [bcast_col hb1, rSig_apply sw o hs hb0 X b t k hk hok]

/-- The reference's last step: the rank-4 product summed over the fork axis from zero, its right-hand column taken. -/
def rLast (hs : (⟨3, ![B, T, 1023]⟩ : Shape).Slices ![0, 0, 511] ⟨3, ![B, T, 512]⟩)
    (hb0 : (⟨0, ![]⟩ : Shape).BroadcastsInDim ⟨3, ![B, T, 512]⟩ ![])
    (hb1 : (⟨3, ![B, T, 512]⟩ : Shape).BroadcastsInDim ⟨4, ![B, T, 512, 1]⟩ ![0, 1, 2])
    (hb2 : (⟨4, ![B, T, 512, 1]⟩ : Shape).BroadcastsInDim ⟨4, ![B, T, 512, 2]⟩ ![0, 1, 2, 3])
    (hcat : Shape.Concatenates [⟨4, ![B, T, 512, 1]⟩, ⟨4, ![B, T, 512, 1]⟩] ⟨4, ![B, T, 512, 2]⟩ 3)
    (hto : (⟨4, ![B, T, 512, 2]⟩ : Shape).ReducesTo [2] ⟨3, ![B, T, 2]⟩) (hu : 0 < (⟨0, ![]⟩ : Shape).numel)
    (hsl : (⟨3, ![B, T, 2]⟩ : Shape).Slices ![0, 0, 1] ⟨3, ![B, T, 1]⟩)
    (hc : (⟨3, ![B, T, 1]⟩ : Shape).ShapeCasts ⟨2, ![B, T]⟩)
    (X : FVec Ideal ⟨3, ![B, T, 1023]⟩ .f32) (q : FVec Ideal ⟨3, ![B, T, 512]⟩ .f32) : FVec Ideal ⟨2, ![B, T]⟩ .f32 :=
  shapeCast ⟨2, ![B, T]⟩
    (extractStridedSlice ⟨3, ![B, T, 1]⟩ ![0, 0, 1]
      (Host.reduceAdd (rPair 0x3F800000#32 511 hs hb0 hb1 hb2 hcat X q) (constant ⟨0, ![]⟩ .f32 0x00000000#32) hto hu) hsl) hc

theorem rLast_apply (hs : (⟨3, ![B, T, 1023]⟩ : Shape).Slices ![0, 0, 511] ⟨3, ![B, T, 512]⟩)
    (hb0 : (⟨0, ![]⟩ : Shape).BroadcastsInDim ⟨3, ![B, T, 512]⟩ ![])
    (hb1 : (⟨3, ![B, T, 512]⟩ : Shape).BroadcastsInDim ⟨4, ![B, T, 512, 1]⟩ ![0, 1, 2])
    (hb2 : (⟨4, ![B, T, 512, 1]⟩ : Shape).BroadcastsInDim ⟨4, ![B, T, 512, 2]⟩ ![0, 1, 2, 3])
    (hcat : Shape.Concatenates [⟨4, ![B, T, 512, 1]⟩, ⟨4, ![B, T, 512, 1]⟩] ⟨4, ![B, T, 512, 2]⟩ 3)
    (hto : (⟨4, ![B, T, 512, 2]⟩ : Shape).ReducesTo [2] ⟨3, ![B, T, 2]⟩) (hu : 0 < (⟨0, ![]⟩ : Shape).numel)
    (hred : (⟨4, ![B, T, 512, 2]⟩ : Shape).Reduces [2] ⟨3, ![B, T, 2]⟩)
    (hsl : (⟨3, ![B, T, 2]⟩ : Shape).Slices ![0, 0, 1] ⟨3, ![B, T, 1]⟩)
    (hc : (⟨3, ![B, T, 1]⟩ : Shape).ShapeCasts ⟨2, ![B, T]⟩)
    (X : FVec Ideal ⟨3, ![B, T, 1023]⟩ .f32) (q : FVec Ideal ⟨3, ![B, T, 512]⟩ .f32) (b : Fin B) (t : Fin T) :
    rLast hs hb0 hb1 hb2 hcat hto hu hsl hc X q (ix2 b t)
      = ∑ k : Fin 512, rowOf q b t k.val * branch (Ideal.ofBits .f32 0x3F800000#32) (rowOf X b t (511 + k.val)) := by
  unfold rLast
  refine (shapeCast_apply _ hc (ix2 b t) (ix3 b t (0 : Fin 1)) ?_).trans ?_
  · rw [Shape.rowMajor_val_three, Shape.rowMajor_val_two]
    show (b.val * T + t.val) * 1 + 0 = b.val * T + t.val
    omega
  refine (extractStridedSlice_apply _ _ hsl _ (ix3 b t (1 : Fin 2)) fun a => ?_).trans ?_
  · match a with
    | ⟨0, _⟩ => show b.val = 0 + b.val; omega
    | ⟨1, _⟩ => show t.val = 0 + t.val; omega
    | ⟨2, _⟩ => rfl
  refine (hostReduceAdd_apply _ _ hto hu _).trans ?_
  refine (Ideal.hostReduceAdd_single hto hred _ _ _).trans ?_
  rw [constant_apply, Ideal.ofBits_zero_f32, zero_add]
  refine Finset.sum_congr rfl fun k _ => ?_
  have hk : k.val < 512 := k.isLt
  have hl : hred.lift (ix3 b t (1 : Fin 2)) k = ix4 b t ⟨k.val, hk⟩ (1 : Fin 2) := by
    funext a
    match a with
    | ⟨0, _⟩ => exact Fin.ext rfl
    | ⟨1, _⟩ => exact Fin.ext rfl
    | ⟨2, _⟩ => exact Fin.ext rfl
    | ⟨3, _⟩ => exact Fin.ext rfl
  rw [hl, rPair_apply_right 0x3F800000#32 511 hs hb0 hb1 hb2 hcat X q b t k.val hk (by omega),
    rowOf_lt q b t k.val hk, rowOf_lt X b t (511 + k.val) (by omega)]

end LastRef

/-! ## Rows of the argument array, and the specification -/

section Flat
variable {B T N : ℕ}

/-- Tree `t`'s logits in row `b` of a rank-2 array whose rows hold the trees one after the other, 1023 entries each,
    extended by zero. -/
def flatRow (A : (⟨2, ![B, N]⟩ : Shape).Idx → EReal) (b : Fin B) (t : ℕ) : ℕ → EReal :=
  fun f => if f < 1023 then (if h : 1023 * t + f < N then A (ix2 b ⟨1023 * t + f, h⟩) else 0) else 0

/-- Splitting each row into trees does not move an entry: row `(b, t)` of the rank-3 view is tree `t` of row `b`. -/
theorem rowOf_shapeCast (hN : N = T * 1023) (A : (⟨2, ![B, N]⟩ : Shape).Idx → EReal)
    (hc : (⟨2, ![B, N]⟩ : Shape).ShapeCasts ⟨3, ![B, T, 1023]⟩) (b : Fin B) (t : Fin T) :
    rowOf (shapeCast ⟨3, ![B, T, 1023]⟩ A hc) b t = flatRow A b t.val := by
  funext f
  unfold flatRow
  by_cases hf : f < 1023
  · have ht := t.isLt
    have hlt : 1023 * t.val + f < N := by
      subst hN
      calc 1023 * t.val + f < 1023 * t.val + 1023 := by omega
        _ = 1023 * (t.val + 1) := by ring
        _ ≤ 1023 * T := Nat.mul_le_mul_left _ ht
        _ = T * 1023 := Nat.mul_comm _ _
    rw [rowOf_lt _ b t f hf, if_pos hf, dif_pos hlt]
    refine shapeCast_apply A hc _ (ix2 b ⟨1023 * t.val + f, hlt⟩) ?_
    rw [Shape.rowMajor_val_two, Shape.rowMajor_val_three]
    show b.val * N + (1023 * t.val + f) = (b.val * T + t.val) * 1023 + f
    subst hN
    ring
  · rw [rowOf_ge _ b t f (by omega), if_neg hf]

/-- Rows that hold the same entries are the same row. -/
theorem flatRow_congr {B' : ℕ} (A : (⟨2, ![B, N]⟩ : Shape).Idx → EReal) (A' : (⟨2, ![B', N]⟩ : Shape).Idx → EReal)
    (b : Fin B) (b' : Fin B') (h : ∀ c : Fin N, A (ix2 b c) = A' (ix2 b' c)) (t : ℕ) : flatRow A b t = flatRow A' b' t := by
  funext f
  unfold flatRow
  by_cases hf : f < 1023
  · rw [if_pos hf, if_pos hf]
    by_cases hlt : 1023 * t + f < N
    · rw [dif_pos hlt, dif_pos hlt]; exact h _
    · rw [dif_neg hlt, dif_neg hlt]
  · rw [if_neg hf, if_neg hf]

/-- THE SPECIFICATION: entry `(b, t)` of the result is the value of tree `t` of row `b`. -/
def G (A : (⟨2, ![B, N]⟩ : Shape).Idx → EReal) : (⟨2, ![B, T]⟩ : Shape).Idx → EReal :=
  fun j => treeOut (flatRow A (j 0) (j 1).val)

end Flat

/-! ## The root, and the recursion's unfolding -/

/-- At the root everything arrives: the row of all ones of width one is level 0. -/
theorem root_row {B T : ℕ} (q : (⟨3, ![B, T, 1]⟩ : Shape).Idx → EReal) (hq : ∀ i, q i = 1) (b : Fin B) (t : Fin T)
    (ℓ : ℕ → EReal) : rowOf q b t = reach ℓ 0 := by
  funext k
  show rowOf q b t k = if k < 1 then 1 else 0
  by_cases hk : k < 1
  · rw [rowOf_lt q b t k hk, if_pos hk, hq]
  · rw [rowOf_ge q b t k (by omega), if_neg hk]

/-- A row that is the step of level `i` is level `i + 1`. -/
theorem reach_step (ℓ : ℕ → EReal) (i : ℕ) {q q' : ℕ → EReal} {s : EReal} {o : ℕ} (hq : q = reach ℓ i)
    (hs : s = Ideal.ofBits .f32 (sc i)) (ho : o = 2 ^ i - 1) (h : q' = rowStep s o ℓ q) : q' = reach ℓ (i + 1) := by
  subst hq hs ho; exact h

/-- The sum over the last level with its row named is the tree's value. -/
theorem treeOut_of (ℓ q : ℕ → EReal) (hq : q = reach ℓ 9) :
    (∑ k : Fin 512, q k.val * branch (Ideal.ofBits .f32 0x3F800000#32) (ℓ (511 + k.val))) = treeOut ℓ := by
  subst hq; rfl

end Cert.Tree

end
-- ==== Proof.KernelTree.lean ====
/-
  The kernel's body on one block of 32 rows, read as the tree recursion.

  The body computes, for the 32 × 32 trees of the block at once, what reaches each fork level by level — the arrays
  `q1 … q9` below, of widths 2, 4, …, 512 — and then sums the last level's right-hand shares. Each `q` is one
  `kLevel` of the one before; the body's printed payload is these nine levels and `kLast`, term for term. Row
  `(p, t)` of `q i` is level `i` of the recursion on that tree's logits, so entry `(p, t)` of the payload is the tree's
  value.
-/
import proofs.«173861_j82162724372481_1_alg».proof.Proof.Gen.KernelIdeal.Skeleton
import proofs.«173861_j82162724372481_1_alg».proof.Proof.TreeSpec

noncomputable section

namespace Cert.KernelIdeal.TreeValue

open Idealize.ShloMosaic Idealize.ShloMosaic.ValueIdx Cert.KernelIdeal Cert.KernelIdeal.Gen Cert.Tree

/-- The block's logits, one row of 1023 per tree. -/
def X (v : Vec Ideal S32x32736 .f32) : FVec Ideal S32x32x1023 .f32 := k0_pay2 v

/-- What reaches the root: one. -/
def q0 : FVec Ideal S32x32x1 .f32 := broadcast S32x32x1 (Scalar.ofBits .f32 0x3F800000#32)

/-- What reaches the forks of levels 1 to 9. -/
def q1 (v : Vec Ideal S32x32736 .f32) : FVec Ideal S32x32x2 .f32 :=
  kLevel 0x3B000000#32 0 slices_S32x32x1023_o0_0_0_S32x32x1 shapeCasts_S32x32x1_S32x32x1x1
    concatenates_S32x32x1x1_S32x32x1x1_S32x32x1x2_d3 shapeCasts_S32x32x1x2_S32x32x2 (X v) q0
def q2 (v : Vec Ideal S32x32736 .f32) : FVec Ideal S32x32x4 .f32 :=
  kLevel 0x3B800000#32 1 slices_S32x32x1023_o0_0_1_S32x32x2 shapeCasts_S32x32x2_S32x32x2x1
    concatenates_S32x32x2x1_S32x32x2x1_S32x32x2x2_d3 shapeCasts_S32x32x2x2_S32x32x4 (X v) (q1 v)
def q3 (v : Vec Ideal S32x32736 .f32) : FVec Ideal S32x32x8 .f32 :=
  kLevel 0x3C000000#32 3 slices_S32x32x1023_o0_0_3_S32x32x4 shapeCasts_S32x32x4_S32x32x4x1
    concatenates_S32x32x4x1_S32x32x4x1_S32x32x4x2_d3 shapeCasts_S32x32x4x2_S32x32x8 (X v) (q2 v)
def q4 (v : Vec Ideal S32x32736 .f32) : FVec Ideal S32x32x16 .f32 :=
  kLevel 0x3C800000#32 7 slices_S32x32x1023_o0_0_7_S32x32x8 shapeCasts_S32x32x8_S32x32x8x1
    concatenates_S32x32x8x1_S32x32x8x1_S32x32x8x2_d3 shapeCasts_S32x32x8x2_S32x32x16 (X v) (q3 v)
def q5 (v : Vec Ideal S32x32736 .f32) : FVec Ideal S32x32x32 .f32 :=
  kLevel 0x3D000000#32 15 slices_S32x32x1023_o0_0_15_S32x32x16 shapeCasts_S32x32x16_S32x32x16x1
    concatenates_S32x32x16x1_S32x32x16x1_S32x32x16x2_d3 shapeCasts_S32x32x16x2_S32x32x32 (X v) (q4 v)
def q6 (v : Vec Ideal S32x32736 .f32) : FVec Ideal S32x32x64 .f32 :=
  kLevel 0x3D800000#32 31 slices_S32x32x1023_o0_0_31_S32x32x32 shapeCasts_S32x32x32_S32x32x32x1
    concatenates_S32x32x32x1_S32x32x32x1_S32x32x32x2_d3 shapeCasts_S32x32x32x2_S32x32x64 (X v) (q5 v)
def q7 (v : Vec Ideal S32x32736 .f32) : FVec Ideal S32x32x128 .f32 :=
  kLevel 0x3E000000#32 63 slices_S32x32x1023_o0_0_63_S32x32x64 shapeCasts_S32x32x64_S32x32x64x1
    concatenates_S32x32x64x1_S32x32x64x1_S32x32x64x2_d3 shapeCasts_S32x32x64x2_S32x32x128 (X v) (q6 v)
def q8 (v : Vec Ideal S32x32736 .f32) : FVec Ideal S32x32x256 .f32 :=
  kLevel 0x3E800000#32 127 slices_S32x32x1023_o0_0_127_S32x32x128 shapeCasts_S32x32x128_S32x32x128x1
    concatenates_S32x32x128x1_S32x32x128x1_S32x32x128x2_d3 shapeCasts_S32x32x128x2_S32x32x256 (X v) (q7 v)
def q9 (v : Vec Ideal S32x32736 .f32) : FVec Ideal S32x32x512 .f32 :=
  kLevel 0x3F000000#32 255 slices_S32x32x1023_o0_0_255_S32x32x256 shapeCasts_S32x32x256_S32x32x256x1
    concatenates_S32x32x256x1_S32x32x256x1_S32x32x256x2_d3 shapeCasts_S32x32x256x2_S32x32x512 (X v) (q8 v)

/-- The body's stored value, from the block it loaded. -/
def pay (v : Vec Ideal S32x32736 .f32) : FVec Ideal S32x32 .f32 :=
  k0_pay1 (k0_pay2 v) (k0_pay7 (k0_pay2 v) (k0_pay5 v) (k0_pay6 v)) (k0_pay8 (k0_pay2 v))

/-- The printed payload IS the nine levels and the last step: the printed lines, regrouped. -/
theorem pay_eq (v : Vec Ideal S32x32736 .f32) :
    pay v = kLast slices_S32x32x1023_o0_0_511_S32x32x512 reduces_S32x32x512_S32x32 (X v) (q9 v) := rfl

/-! ## Row by row: each level is the recursion's -/

section Rows
variable (v : Vec Ideal S32x32736 .f32) (p t : Fin 32)

theorem row0 : rowOf q0 p t = reach (rowOf (X v) p t) 0 :=
  root_row q0 (fun _ => Ideal.ofBits_one_f32) p t _

theorem row1 : rowOf (q1 v) p t = reach (rowOf (X v) p t) 1 :=
  reach_step _ 0 (row0 v p t) rfl rfl (kLevel_row 0x3B000000#32 0 rfl (by norm_num) _ _ _ _ (X v) q0 p t)

theorem row2 : rowOf (q2 v) p t = reach (rowOf (X v) p t) 2 :=
  reach_step _ 1 (row1 v p t) rfl rfl (kLevel_row 0x3B800000#32 1 rfl (by norm_num) _ _ _ _ (X v) (q1 v) p t)

theorem row3 : rowOf (q3 v) p t = reach (rowOf (X v) p t) 3 :=
  reach_step _ 2 (row2 v p t) rfl rfl (kLevel_row 0x3C000000#32 3 rfl (by norm_num) _ _ _ _ (X v) (q2 v) p t)

theorem row4 : rowOf (q4 v) p t = reach (rowOf (X v) p t) 4 :=
  reach_step _ 3 (row3 v p t) rfl rfl (kLevel_row 0x3C800000#32 7 rfl (by norm_num) _ _ _ _ (X v) (q3 v) p t)

theorem row5 : rowOf (q5 v) p t = reach (rowOf (X v) p t) 5 :=
  reach_step _ 4 (row4 v p t) rfl rfl (kLevel_row 0x3D000000#32 15 rfl (by norm_num) _ _ _ _ (X v) (q4 v) p t)

theorem row6 : rowOf (q6 v) p t = reach (rowOf (X v) p t) 6 :=
  reach_step _ 5 (row5 v p t) rfl rfl (kLevel_row 0x3D800000#32 31 rfl (by norm_num) _ _ _ _ (X v) (q5 v) p t)

theorem row7 : rowOf (q7 v) p t = reach (rowOf (X v) p t) 7 :=
  reach_step _ 6 (row6 v p t) rfl rfl (kLevel_row 0x3E000000#32 63 rfl (by norm_num) _ _ _ _ (X v) (q6 v) p t)

theorem row8 : rowOf (q8 v) p t = reach (rowOf (X v) p t) 8 :=
  reach_step _ 7 (row7 v p t) rfl rfl (kLevel_row 0x3E800000#32 127 rfl (by norm_num) _ _ _ _ (X v) (q7 v) p t)

theorem row9 : rowOf (q9 v) p t = reach (rowOf (X v) p t) 9 :=
  reach_step _ 8 (row8 v p t) rfl rfl (kLevel_row 0x3F000000#32 255 rfl (by norm_num) _ _ _ _ (X v) (q8 v) p t)

/-- The block's rank-3 view holds, in row `(p, t)`, tree `t` of the block's row `p`. -/
theorem rowX : rowOf (X v) p t = flatRow v p t.val :=
  rowOf_shapeCast (by norm_num) v shapeCasts_S32x32736_S32x32x1023 p t

/-- ENTRY `(p, t)` OF THE BODY'S STORED VALUE is the value of tree `t` of the block's row `p`. -/
theorem pay_apply : pay v (ix2 p t) = treeOut (flatRow v p t.val) := by
  rw [pay_eq, kLast_apply, ← rowX]
  exact treeOut_of _ _ (row9 v p t)

end Rows

/-! ## A block against the whole array -/

/-- If the block `v` holds rows `b0 …` of the array `A`, then an entry of the body's stored value is the
    specification's entry in the matching row: the same tree's logits are read on both sides. -/
theorem pay_block (v : Vec Ideal S32x32736 .f32) (A : S4096x32736.Idx → EReal) (b0 : ℕ) (j : S32x32.Idx) (i : S4096x32.Idx)
    (hrow : (i 0).val = b0 + (j 0).val) (hcol : (i 1).val = (j 1).val)
    (hv : ∀ (y : S32x32736.Idx) (z : S4096x32736.Idx), (z 0).val = b0 + (y 0).val → (z 1).val = (y 1).val → v y = A z) :
    pay v j = G (T := 32) A i := by
  obtain ⟨p, t, rfl⟩ : ∃ (p : Fin 32) (t : Fin 32), j = ix2 p t := ⟨j 0, j 1, eq_ix2 j⟩
  obtain ⟨b, t', rfl⟩ : ∃ (b : Fin 4096) (t' : Fin 32), i = ix2 b t' := ⟨i 0, i 1, eq_ix2 i⟩
  have ht : t'.val = t.val := hcol
  rw [pay_apply]
  show treeOut (flatRow v p t.val) = treeOut (flatRow A b t'.val)
  rw [ht]
  exact congrArg treeOut (flatRow_congr v A p b (fun c => hv (ix2 p c) (ix2 b c) hrow rfl) t.val)

end Cert.KernelIdeal.TreeValue

end
-- ==== Proof.KernelRun.lean ====
/-
  From the blocks to the whole result array.

  Grid point `t` of the 128 stages rows `32t … 32t + 31` of the argument (all 32736 columns) and writes back rows
  `32t … 32t + 31` of the result (all 32 columns). What it writes back is the body's stored value on the block it staged,
  which entry by entry is the specification `G` of the argument in the matching row (`pay_block`). The 128 row bands
  cover the result, so after the run the result array IS `G` of the argument.
-/
import proofs.«173861_j82162724372481_1_alg».proof.Proof.Gen.KernelIdeal.Value
import proofs.«173861_j82162724372481_1_alg».proof.Proof.KernelTree

noncomputable section

namespace Cert.KernelIdeal.TreeRun

open Cert.KernelIdeal Cert.KernelIdeal.Gen Idealize.ShloMosaic Idealize.ShloMosaic.TcCoe Idealize.SL.Sem
open Idealize.ShloMosaic.ValueIdx
open Idealize.ShloMosaic.Pipeline (Dat)
open Cert.Tree Cert.KernelIdeal.TreeValue

variable (m : (ℓ : Loc nD τ sig) → Buf (Elt Ideal) ℓ) (ρ : Dev nD → PrngReg)

/-- The body's one load and one store are at offset zero of their staging buffers. -/
theorem offs_zero : (![0, 0] : Fin 2 → Nat) = fun _ => 0 := funext fun a => by fin_cases a <;> rfl

/-- The two index maps, decided over the grid: at point `t` both windows are at block row `t`, block column `0`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Every row band of the result is some point's. -/
theorem idx_onto : ∀ q0 : Fin 128, ∃ t : Fin cfg0.N, win0_1.index t = ![q0.val, 0] :=
  (by decide +kernel : ∀ q0 : Fin 128, ∃ t : Fin grid0.N, win0_1.index t = ![q0.val, 0])

/-- WHAT POINT `t` WRITES BACK is block `t` of the specification of the argument array. -/
theorem flushed_eq (c : Dev nD) (t : Fin cfg0.N) :
    (dats m 0 c).flushed 1 t
      = ((cfg0.win 1).blk t).view.read (Elt Ideal) (G (B := 4096) (N := 32736) (T := 32) (V m c main_arg0)) := by
  rw [Value.flushed1]
  unfold out0_1
  rw [View.canon_unit_zero offs_zero]
  simp only [View.ld_unit_zero (S := S32x32736) offs_zero]
  obtain ⟨e0, e1, e2, e3⟩ := idx_facts t
  funext j
  show pay (iblk m c 0 t) j = G (B := 4096) (N := 32736) (T := 32) (V m c main_arg0) (((cfg0.win 1).blk t).view.emb j)
  refine pay_block (iblk m c 0 t) (V m c main_arg0) (32 * t.val) j _ ?_ ?_ ?_
  · show win0_1.index t (0 : Fin 2) * 32 + 1 * (j 0).val = 32 * t.val + (j 0).val
    omega
  · show win0_1.index t (1 : Fin 2) * 32 + 1 * (j 1).val = (j 1).val
    omega
  · intro y z hz0 hz1
    show V m c main_arg0 (((cfg0.win 0).blk t).view.emb y) = V m c main_arg0 z
    refine congrArg _ (funext fun a => Fin.ext ?_)
    match a with
    | ⟨0, _⟩ => show win0_0.index t (0 : Fin 2) * 32 + 1 * (y 0).val = (z 0).val; omega
    | ⟨1, _⟩ => show win0_0.index t (1 : Fin 2) * 32736 + 1 * (y 1).val = (z 1).val; omega

/-- An index of the result is in point `t`'s block iff each coordinate is in the block's range on its axis. -/
theorem mem_blk (t : Fin cfg0.N) (i : S4096x32.Idx) :
    i ∈ ((cfg0.win 1).blk t).view.set ↔ ∀ a : Fin 2, win0_1.index t a * S32x32.size a ≤ (i a).val
      ∧ (i a).val < win0_1.index t a * S32x32.size a + S32x32.size a := by
  show i ∈ ((View.whole main_v0).slice (win0_1.rect t)).set ↔ _
  rw [View.set_slice_whole, Rect.mem_set_unit]
  exact Iff.rfl

/-- The row bands cover the result: row `r` is in the band of point `r / 32`. -/
theorem cover (i : S4096x32.Idx) : ∃ t : Fin cfg0.N, (cfg0.win 1).flush t = true ∧ i ∈ ((cfg0.win 1).blk t).view.set := by
  have hi0 : (i 0).val < 4096 := (i 0).isLt
  have hi1 : (i 1).val < 32 := (i 1).isLt
  obtain ⟨t, ht⟩ := idx_onto ⟨(i 0).val / 32, by omega⟩
  have q0 : win0_1.index t (0 : Fin 2) = (i 0).val / 32 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 32 ≤ (i 0).val ∧ (i 0).val < win0_1.index t (0 : Fin 2) * 32 + 32
    omega
  | ⟨1, _⟩ =>
    show win0_1.index t (1 : Fin 2) * 32 ≤ (i 1).val ∧ (i 1).val < win0_1.index t (1 : Fin 2) * 32 + 32
    omega

/-- THE RESULT ARRAY after the run is the specification of the argument array. -/
theorem final (c : Dev nD) :
    (dats m 0 c).arrAt 1 cfg0.N = G (B := 4096) (N := 32736) (T := 32) (m ((c : Thread nD τ).loc main_arg0)) :=
  (dats m 0 c).arrAt_eq_of_cover 1 _ (fun t _ => flushed_eq m c t) cover

/-- The kernel's run: every weakly fair execution ends with the result array at the specification of the argument, the
    argument unchanged. -/
theorem run : θ_run defs (onTc (τ := τ) (main (F := Ideal))) ⟨m, fun _ => 0, ρ⟩ fun r => ∀ c : Dev nD,
      r.2.mem ((c : Thread nD τ).loc main_v0) = G (B := 4096) (N := 32736) (T := 32) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.TreeRun

end
-- ==== Proof.RefTree.lean ====
/-
  The reference's program, read as the tree recursion.

  The reference computes, for all 4096 × 32 trees at once, what reaches each fork level by level — the arrays
  `r1 … r9` below, of widths 2, 4, …, 512, each one `rLevel` of the one before — and then sums the last level's
  products over the fork axis and keeps the right-hand column. Its run's result term is these nine levels and
  `rLast`, term for term. Row `(b, t)` of `r i` is level `i` of the recursion on that tree's logits.
-/
import proofs.«173861_j82162724372481_1_alg».proof.Proof.Gen.ReferenceIdeal.Run
import proofs.«173861_j82162724372481_1_alg».proof.Proof.TreeSpec

noncomputable section

namespace Cert.ReferenceIdeal.TreeValue

open Idealize.ShloMosaic Idealize.ShloMosaic.ValueIdx Idealize.ShloMosaic.StableHlo Cert.ReferenceIdeal Cert.ReferenceIdeal.Gen Cert.Tree

/-- The argument's logits, one row of 1023 per tree. -/
def X (A : FVec Ideal S4096x32736 .f32) : FVec Ideal S4096x32x1023 .f32 :=
  shapeCast S4096x32x1023 A shapeCasts_S4096x32736_S4096x32x1023

/-- What reaches the root: one. -/
def r0 : FVec Ideal S4096x32x1 .f32 := broadcastInDim S4096x32x1 ![] bcast_S_S4096x32x1 (constant S_ .f32 0x3F800000#32)

/-- What reaches the forks of levels 1 to 9. -/
def r1 (A : FVec Ideal S4096x32736 .f32) : FVec Ideal S4096x32x2 .f32 :=
  rLevel 0x3B000000#32 0 slices_S4096x32x1023_S4096x32x1_0_0_0 bcast_S_S4096x32x1 bcast_S4096x32x1_S4096x32x1x1_0_1_2
    bcast_S4096x32x1x1_S4096x32x1x2_0_1_2_3 concatenates_S4096x32x1x1_S4096x32x1x1_S4096x32x1x2_d3
    shapeCasts_S4096x32x1x2_S4096x32x2 (X A) r0
def r2 (A : FVec Ideal S4096x32736 .f32) : FVec Ideal S4096x32x4 .f32 :=
  rLevel 0x3B800000#32 1 slices_S4096x32x1023_S4096x32x2_0_0_1 bcast_S_S4096x32x2 bcast_S4096x32x2_S4096x32x2x1_0_1_2
    bcast_S4096x32x2x1_S4096x32x2x2_0_1_2_3 concatenates_S4096x32x2x1_S4096x32x2x1_S4096x32x2x2_d3
    shapeCasts_S4096x32x2x2_S4096x32x4 (X A) (r1 A)
def r3 (A : FVec Ideal S4096x32736 .f32) : FVec Ideal S4096x32x8 .f32 :=
  rLevel 0x3C000000#32 3 slices_S4096x32x1023_S4096x32x4_0_0_3 bcast_S_S4096x32x4 bcast_S4096x32x4_S4096x32x4x1_0_1_2
    bcast_S4096x32x4x1_S4096x32x4x2_0_1_2_3 concatenates_S4096x32x4x1_S4096x32x4x1_S4096x32x4x2_d3
    shapeCasts_S4096x32x4x2_S4096x32x8 (X A) (r2 A)
def r4 (A : FVec Ideal S4096x32736 .f32) : FVec Ideal S4096x32x16 .f32 :=
  rLevel 0x3C800000#32 7 slices_S4096x32x1023_S4096x32x8_0_0_7 bcast_S_S4096x32x8 bcast_S4096x32x8_S4096x32x8x1_0_1_2
    bcast_S4096x32x8x1_S4096x32x8x2_0_1_2_3 concatenates_S4096x32x8x1_S4096x32x8x1_S4096x32x8x2_d3
    shapeCasts_S4096x32x8x2_S4096x32x16 (X A) (r3 A)
def r5 (A : FVec Ideal S4096x32736 .f32) : FVec Ideal S4096x32x32 .f32 :=
  rLevel 0x3D000000#32 15 slices_S4096x32x1023_S4096x32x16_0_0_15 bcast_S_S4096x32x16 bcast_S4096x32x16_S4096x32x16x1_0_1_2
    bcast_S4096x32x16x1_S4096x32x16x2_0_1_2_3 concatenates_S4096x32x16x1_S4096x32x16x1_S4096x32x16x2_d3
    shapeCasts_S4096x32x16x2_S4096x32x32 (X A) (r4 A)
def r6 (A : FVec Ideal S4096x32736 .f32) : FVec Ideal S4096x32x64 .f32 :=
  rLevel 0x3D800000#32 31 slices_S4096x32x1023_S4096x32x32_0_0_31 bcast_S_S4096x32x32 bcast_S4096x32x32_S4096x32x32x1_0_1_2
    bcast_S4096x32x32x1_S4096x32x32x2_0_1_2_3 concatenates_S4096x32x32x1_S4096x32x32x1_S4096x32x32x2_d3
    shapeCasts_S4096x32x32x2_S4096x32x64 (X A) (r5 A)
def r7 (A : FVec Ideal S4096x32736 .f32) : FVec Ideal S4096x32x128 .f32 :=
  rLevel 0x3E000000#32 63 slices_S4096x32x1023_S4096x32x64_0_0_63 bcast_S_S4096x32x64 bcast_S4096x32x64_S4096x32x64x1_0_1_2
    bcast_S4096x32x64x1_S4096x32x64x2_0_1_2_3 concatenates_S4096x32x64x1_S4096x32x64x1_S4096x32x64x2_d3
    shapeCasts_S4096x32x64x2_S4096x32x128 (X A) (r6 A)
def r8 (A : FVec Ideal S4096x32736 .f32) : FVec Ideal S4096x32x256 .f32 :=
  rLevel 0x3E800000#32 127 slices_S4096x32x1023_S4096x32x128_0_0_127 bcast_S_S4096x32x128 bcast_S4096x32x128_S4096x32x128x1_0_1_2
    bcast_S4096x32x128x1_S4096x32x128x2_0_1_2_3 concatenates_S4096x32x128x1_S4096x32x128x1_S4096x32x128x2_d3
    shapeCasts_S4096x32x128x2_S4096x32x256 (X A) (r7 A)
def r9 (A : FVec Ideal S4096x32736 .f32) : FVec Ideal S4096x32x512 .f32 :=
  rLevel 0x3F000000#32 255 slices_S4096x32x1023_S4096x32x256_0_0_255 bcast_S_S4096x32x256 bcast_S4096x32x256_S4096x32x256x1_0_1_2
    bcast_S4096x32x256x1_S4096x32x256x2_0_1_2_3 concatenates_S4096x32x256x1_S4096x32x256x1_S4096x32x256x2_d3
    shapeCasts_S4096x32x256x2_S4096x32x512 (X A) (r8 A)

/-- The reference's result, from its argument. -/
def out (A : FVec Ideal S4096x32736 .f32) : FVec Ideal S4096x32 .f32 :=
  rLast slices_S4096x32x1023_S4096x32x512_0_0_511 bcast_S_S4096x32x512 bcast_S4096x32x512_S4096x32x512x1_0_1_2
    bcast_S4096x32x512x1_S4096x32x512x2_0_1_2_3 concatenates_S4096x32x512x1_S4096x32x512x1_S4096x32x512x2_d3
    reducesTo_S4096x32x512x2_S4096x32x2_d2 h_S_ slices_S4096x32x2_S4096x32x1_0_0_1 shapeCasts_S4096x32x1_S4096x32 (X A) (r9 A)

set_option maxRecDepth 8192 in
/-- The run's result term IS the nine levels and the last step: the run's operations, regrouped. -/
theorem term_eq (V0 : Valuation τ sig (Elt Ideal)) :
    shapeCast _ (extractStridedSlice S4096x32x1 ![0, 0, 1]
        (Host.reduceAdd (Value.res_main_v181 V0) (constant S_ .f32 0x00000000#32) reducesTo_S4096x32x512x2_S4096x32x2_d2 h_S_)
        slices_S4096x32x2_S4096x32x1_0_0_1) shapeCasts_S4096x32x1_S4096x32
      = out (V0 (Proc.devRef .tc main_arg0)) := rfl

/-! ## Row by row: each level is the recursion's -/

section Rows
variable (A : FVec Ideal S4096x32736 .f32) (b : Fin 4096) (t : Fin 32)

theorem row0 : rowOf r0 b t = reach (rowOf (X A) b t) 0 :=
  root_row r0 (fun _ => (broadcastInDim_scalar_apply _ _ _).trans ((constant_apply _ _).trans Ideal.ofBits_one_f32)) b t _

theorem row1 : rowOf (r1 A) b t = reach (rowOf (X A) b t) 1 :=
  reach_step _ 0 (row0 A b t) rfl rfl (rLevel_row 0x3B000000#32 0 rfl (by norm_num) _ _ _ _ _ _ (X A) r0 b t)

theorem row2 : rowOf (r2 A) b t = reach (rowOf (X A) b t) 2 :=
  reach_step _ 1 (row1 A b t) rfl rfl (rLevel_row 0x3B800000#32 1 rfl (by norm_num) _ _ _ _ _ _ (X A) (r1 A) b t)

theorem row3 : rowOf (r3 A) b t = reach (rowOf (X A) b t) 3 :=
  reach_step _ 2 (row2 A b t) rfl rfl (rLevel_row 0x3C000000#32 3 rfl (by norm_num) _ _ _ _ _ _ (X A) (r2 A) b t)

theorem row4 : rowOf (r4 A) b t = reach (rowOf (X A) b t) 4 :=
  reach_step _ 3 (row3 A b t) rfl rfl (rLevel_row 0x3C800000#32 7 rfl (by norm_num) _ _ _ _ _ _ (X A) (r3 A) b t)

theorem row5 : rowOf (r5 A) b t = reach (rowOf (X A) b t) 5 :=
  reach_step _ 4 (row4 A b t) rfl rfl (rLevel_row 0x3D000000#32 15 rfl (by norm_num) _ _ _ _ _ _ (X A) (r4 A) b t)

theorem row6 : rowOf (r6 A) b t = reach (rowOf (X A) b t) 6 :=
  reach_step _ 5 (row5 A b t) rfl rfl (rLevel_row 0x3D800000#32 31 rfl (by norm_num) _ _ _ _ _ _ (X A) (r5 A) b t)

theorem row7 : rowOf (r7 A) b t = reach (rowOf (X A) b t) 7 :=
  reach_step _ 6 (row6 A b t) rfl rfl (rLevel_row 0x3E000000#32 63 rfl (by norm_num) _ _ _ _ _ _ (X A) (r6 A) b t)

theorem row8 : rowOf (r8 A) b t = reach (rowOf (X A) b t) 8 :=
  reach_step _ 7 (row7 A b t) rfl rfl (rLevel_row 0x3E800000#32 127 rfl (by norm_num) _ _ _ _ _ _ (X A) (r7 A) b t)

theorem row9 : rowOf (r9 A) b t = reach (rowOf (X A) b t) 9 :=
  reach_step _ 8 (row8 A b t) rfl rfl (rLevel_row 0x3F000000#32 255 rfl (by norm_num) _ _ _ _ _ _ (X A) (r8 A) b t)

/-- The argument's rank-3 view holds, in row `(b, t)`, tree `t` of the argument's row `b`. -/
theorem rowX : rowOf (X A) b t = flatRow A b t.val :=
  rowOf_shapeCast (by norm_num) A shapeCasts_S4096x32736_S4096x32x1023 b t

/-- The fork axis of the rank-4 product can be summed over: the shape fact the sum's reading asks for. -/
theorem reduces_pair : S4096x32x512x2.Reduces [2] S4096x32x2 := by decide

/-- THE REFERENCE'S RESULT IS THE SPECIFICATION: entry `(b, t)` is the value of tree `t` of the argument's row `b`. -/
theorem out_eq : out A = G (T := 32) A := by
  funext j
  obtain ⟨b, t, rfl⟩ : ∃ (b : Fin 4096) (t : Fin 32), j = ix2 b t := ⟨j 0, j 1, eq_ix2 j⟩
  show out A (ix2 b t) = treeOut (flatRow A b t.val)
  unfold out
  rw [rLast_apply _ _ _ _ _ _ _ reduces_pair, ← rowX]
  exact treeOut_of _ _ (row9 A b t)

end Rows

end Cert.ReferenceIdeal.TreeValue

end
-- ==== Proof.lean ====
/-
  Ten levels of soft decision trees: a Pallas kernel over row bands against a jnp reference over the whole batch.

  For each of the 4096 rows and 32 trees the input holds 1023 fork logits, level by level. A fork on level `i` sends the
  fraction `logistic (2^(i-9) · x)` of what reaches it to the right and the rest to the left; the result is what leaves
  the ten-level tree's last level to the right, summed over its 512 forks (Proof/TreeSpec.lean: `reach`, `treeOut`, and
  the specification `G`).

  The kernel handles 32 rows per grid point and spells a level with shape casts around a concatenation; the reference
  handles all rows at once and spells it with broadcasts, and writes the logistic function out as `1 / (1 + exp (-·))`,
  which at the exact instance is what `logistic` means. Row by row both spellings are the same step of the recursion
  (`kLevel_row`, `rLevel_row`), the sum over the last level is read the same on both sides (`kLast_apply`,
  `rLast_apply`), and so both result arrays are `G` of the argument: Proof/KernelTree.lean and Proof/KernelRun.lean for
  the kernel, Proof/RefTree.lean for the reference. No law beyond the commutative monoid of a finite sum is used, so the
  finiteness of the inputs is never opened.

  The frames of the two kernel programs are the generated ones; the reference's is its generated run with the result
  dropped; the idealization rewrote nothing, so `preserves` is trivial.
-/
import proofs.«173861_j82162724372481_1_alg».proof.Defs
import proofs.«173861_j82162724372481_1_alg».proof.Proof.Gen.Kernel
import proofs.«173861_j82162724372481_1_alg».proof.Proof.Gen.Kernel.Skeleton
import proofs.«173861_j82162724372481_1_alg».proof.Proof.Gen.Kernel.Launch
import proofs.«173861_j82162724372481_1_alg».proof.Proof.Gen.Kernel.Points
import proofs.«173861_j82162724372481_1_alg».proof.Proof.Gen.Kernel.Frame
import proofs.«173861_j82162724372481_1_alg».proof.Proof.Gen.KernelIdeal
import proofs.«173861_j82162724372481_1_alg».proof.Proof.Gen.KernelIdeal.Skeleton
import proofs.«173861_j82162724372481_1_alg».proof.Proof.Gen.KernelIdeal.Launch
import proofs.«173861_j82162724372481_1_alg».proof.Proof.Gen.KernelIdeal.Points
import proofs.«173861_j82162724372481_1_alg».proof.Proof.Gen.KernelIdeal.Frame
import proofs.«173861_j82162724372481_1_alg».proof.Proof.Gen.ReferenceIdeal
import proofs.«173861_j82162724372481_1_alg».proof.Proof.Gen.Pre_finite_inputs
import proofs.«173861_j82162724372481_1_alg».proof.Proof.Gen.KernelIdeal.Value
import proofs.«173861_j82162724372481_1_alg».proof.Proof.Gen.ReferenceIdeal.Run
import proofs.«173861_j82162724372481_1_alg».proof.Proof.KernelRun
import proofs.«173861_j82162724372481_1_alg».proof.Proof.RefTree
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the specification `G` of the argument array, and the two argument arrays
    agree. -/
theorem algebraic : Cert.algebraic_KernelIdeal_ReferenceIdeal := by
  intro m ρ m' ρ' _ hagree
  refine ⟨_, Cert.KernelIdeal.TreeRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.TreeValue.term_eq, Cert.ReferenceIdeal.TreeValue.out_eq]
  exact congrArg _ (hagree c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
